-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x128 : Shape := ⟨4, ![32, 64, 128, 128]⟩
abbrev S64 : Shape := ⟨1, ![64]⟩
abbrev S_ : Shape := ⟨0, ![]⟩

class Facts : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel

variable [Facts]

def fn {F : FTy → Type} [FloatOps F] (main_arg0 : FVec F S32x64x128x128 .f32) (main_arg1 : IVec S64 32) : IVec S_ 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  let main_c : IVec S_ 1 := constantI S_ 1 1#1
  let main_v3 : IVec S_ 1 := (fun x v => Host.reduce IntOp.andi x v reducesTo_S32x64x128x128_S_d0_1_2_3 h_S_) main_v2 main_c
  main_v3
-- ==== Kernel.lean ====
abbrev S32x64x128x128 : Shape := ⟨4, ![32, 64, 128, 128]⟩
abbrev S64 : Shape := ⟨1, ![64]⟩
abbrev S32x64x16384 : Shape := ⟨3, ![32, 64, 16384]⟩
abbrev S64x64 : Shape := ⟨2, ![64, 64]⟩
abbrev S1x64x16384 : Shape := ⟨3, ![1, 64, 16384]⟩
abbrev S64x16384 : Shape := ⟨2, ![64, 16384]⟩
abbrev S64x1 : Shape := ⟨2, ![64, 1]⟩
abbrev S16384x64 : Shape := ⟨2, ![16384, 64]⟩
abbrev S1x64 : Shape := ⟨2, ![1, 64]⟩
abbrev S_ : Shape := ⟨0, ![]⟩

abbrev nBuf : Space → Nat
  | .hbm => 99
  | .vmem => 3
  | .smem => 0
  | _ => 0

abbrev bufTy : (tb : Table) → Fin (tcTables nBuf tb) → BufTy
  | .hbm, ⟨0, _⟩ => ⟨S32x64x128x128, .f32⟩
  | .hbm, ⟨1, _⟩ => ⟨S64, .i32⟩
  | .hbm, ⟨2, _⟩ => ⟨S32x64x16384, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S_, .i32⟩
  | .hbm, ⟨8, _⟩ => ⟨S64, .i32⟩
  | .hbm, ⟨9, _⟩ => ⟨S64, .i1⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S1x64, .i32⟩
  | .hbm, ⟨23, _⟩ => ⟨S_, .i32⟩
  | .hbm, ⟨24, _⟩ => ⟨S64x1, .i32⟩
  | .hbm, ⟨25, _⟩ => ⟨S64x1, .i1⟩
  | .hbm, ⟨26, _⟩ => ⟨S_, .i32⟩
  | .hbm, ⟨27, _⟩ => ⟨S1x64, .i32⟩
  | .hbm, ⟨28, _⟩ => ⟨S1x64, .i1⟩
  | .hbm, ⟨29, _⟩ => ⟨S_, .i1⟩
  | .hbm, ⟨30, _⟩ => ⟨S64x1, .i1⟩
  | .hbm, ⟨31, _⟩ => ⟨S64x1, .i1⟩
  | .hbm, ⟨32, _⟩ => ⟨S64x1, .i1⟩
  | .hbm, ⟨33, _⟩ => ⟨S_, .i1⟩
  | .hbm, ⟨34, _⟩ => ⟨S1x64, .i1⟩
  | .hbm, ⟨35, _⟩ => ⟨S1x64, .i1⟩
  | .hbm, ⟨36, _⟩ => ⟨S1x64, .i1⟩
  | .hbm, ⟨37, _⟩ => ⟨S64x64, .i1⟩
  | .hbm, ⟨38, _⟩ => ⟨S64x64, .i1⟩
  | .hbm, ⟨39, _⟩ => ⟨S64x64, .i1⟩
  | .hbm, ⟨40, _⟩ => ⟨S_, .i32⟩
  | .hbm, ⟨41, _⟩ => ⟨S64x1, .i32⟩
  | .hbm, ⟨42, _⟩ => ⟨S64x1, .i1⟩
  | .hbm, ⟨43, _⟩ => ⟨S_, .i32⟩
  | .hbm, ⟨44, _⟩ => ⟨S1x64, .i32⟩
  | .hbm, ⟨45, _⟩ => ⟨S1x64, .i1⟩
  | .hbm, ⟨46, _⟩ => ⟨S_, .i1⟩
  | .hbm, ⟨47, _⟩ => ⟨S64x1, .i1⟩
  | .hbm, ⟨48, _⟩ => ⟨S64x1, .i1⟩
  | .hbm, ⟨49, _⟩ => ⟨S64x1, .i1⟩
  | .hbm, ⟨50, _⟩ => ⟨S_, .i1⟩
  | .hbm, ⟨51, _⟩ => ⟨S1x64, .i1⟩
  | .hbm, ⟨52, _⟩ => ⟨S1x64, .i1⟩
  | .hbm, ⟨53, _⟩ => ⟨S1x64, .i1⟩
  | .hbm, ⟨54, _⟩ => ⟨S64x64, .i1⟩
  | .hbm, ⟨55, _⟩ => ⟨S64x64, .i1⟩
  | .hbm, ⟨56, _⟩ => ⟨S64x64, .i1⟩
  | .hbm, ⟨57, _⟩ => ⟨S64x64, .i1⟩
  | .hbm, ⟨58, _⟩ => ⟨S64x64, .i1⟩
  | .hbm, ⟨59, _⟩ => ⟨S64x64, .i1⟩
  | .hbm, ⟨60, _⟩ => ⟨S_, .i32⟩
  | .hbm, ⟨61, _⟩ => ⟨S64x1, .i32⟩
  | .hbm, ⟨62, _⟩ => ⟨S64x1, .i1⟩
  | .hbm, ⟨63, _⟩ => ⟨S_, .i32⟩
  | .hbm, ⟨64, _⟩ => ⟨S1x64, .i32⟩
  | .hbm, ⟨65, _⟩ => ⟨S1x64, .i1⟩
  | .hbm, ⟨66, _⟩ => ⟨S_, .i1⟩
  | .hbm, ⟨67, _⟩ => ⟨S64x1, .i1⟩
  | .hbm, ⟨68, _⟩ => ⟨S64x1, .i1⟩
  | .hbm, ⟨69, _⟩ => ⟨S64x1, .i1⟩
  | .hbm, ⟨70, _⟩ => ⟨S_, .i1⟩
  | .hbm, ⟨71, _⟩ => ⟨S1x64, .i1⟩
  | .hbm, ⟨72, _⟩ => ⟨S1x64, .i1⟩
  | .hbm, ⟨73, _⟩ => ⟨S1x64, .i1⟩
  | .hbm, ⟨74, _⟩ => ⟨S64x64, .i1⟩
  | .hbm, ⟨75, _⟩ => ⟨S64x64, .i1⟩
  | .hbm, ⟨76, _⟩ => ⟨S64x64, .i1⟩
  | .hbm, ⟨77, _⟩ => ⟨S64x64, .f32⟩
  | .hbm, ⟨78, _⟩ => ⟨S_, .i1⟩
  | .hbm, ⟨79, _⟩ => ⟨S64x64, .i1⟩
  | .hbm, ⟨80, _⟩ => ⟨S64x64, .i32⟩
  | .hbm, ⟨81, _⟩ => ⟨S_, .i32⟩
  | .hbm, ⟨82, _⟩ => ⟨S64x64, .i32⟩
  | .hbm, ⟨83, _⟩ => ⟨S64x64, .i32⟩
  | .hbm, ⟨84, _⟩ => ⟨S64x64, .i32⟩
  | .hbm, ⟨85, _⟩ => ⟨S64x64, .i1⟩
  | .hbm, ⟨86, _⟩ => ⟨S_, .i1⟩
  | .hbm, ⟨87, _⟩ => ⟨S64x64, .i1⟩
  | .hbm, ⟨88, _⟩ => ⟨S64x64, .i1⟩
  | .hbm, ⟨89, _⟩ => ⟨S64x64, .i1⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S64x64, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .local _ .vmem, ⟨0, _⟩ => ⟨S1x64x16384, .f32⟩
  | .local _ .vmem, ⟨1, _⟩ => ⟨S1x64x16384, .f32⟩
  | .local _ .vmem, ⟨2, _⟩ => ⟨S64x64, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_c_3 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_c_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_c_9 : Ref sig .tc := ⟨.hbm, 43, rfl⟩
abbrev main_v27 : Ref sig .tc := ⟨.hbm, 44, rfl⟩
abbrev main_v28 : Ref sig .tc := ⟨.hbm, 45, rfl⟩
abbrev main_c_10 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_11 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_12 : Ref sig .tc := ⟨.hbm, 60, rfl⟩
abbrev main_v41 : Ref sig .tc := ⟨.hbm, 61, rfl⟩
abbrev main_v42 : Ref sig .tc := ⟨.hbm, 62, rfl⟩
abbrev main_c_13 : Ref sig .tc := ⟨.hbm, 63, rfl⟩
abbrev main_v43 : Ref sig .tc := ⟨.hbm, 64, rfl⟩
abbrev main_v44 : Ref sig .tc := ⟨.hbm, 65, rfl⟩
abbrev main_c_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_16 : Ref sig .tc := ⟨.hbm, 78, rfl⟩
abbrev main_v55 : Ref sig .tc := ⟨.hbm, 79, rfl⟩
abbrev main_call2_v0 : Ref sig .tc := ⟨.hbm, 80, rfl⟩
abbrev main_call2_c : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_0 : Ref sig .tc := ⟨.hbm, 86, rfl⟩
abbrev main_call2_v5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_17 : Ref sig .tc := ⟨.hbm, 94, rfl⟩
abbrev main_v62 : Ref sig .tc := ⟨.hbm, 95, rfl⟩
abbrev main_cst_18 : Ref sig .tc := ⟨.hbm, 96, rfl⟩
abbrev main_v63 : Ref sig .tc := ⟨.hbm, 97, rfl⟩
abbrev main_v64 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S32x64x128x128_S32x64x16384 : S32x64x128x128.ShapeCasts S32x64x16384
  inb_S64x64_S64x64_0_0 : ∀ a, (![0, 0] : Fin 2 → Nat) a + S64x64.size a ≤ S64x64.size a
  h_S64x64 : 0 < S64x64.numel
  inb_S1x64x16384_S1x64x16384_0_0_0 : ∀ a, (![0, 0, 0] : Fin 3 → Nat) a + S1x64x16384.size a ≤ S1x64x16384.size a
  h_S1x64x16384 : 0 < S1x64x16384.numel
  shapeCasts_S1x64x16384_S64x16384 : S1x64x16384.ShapeCasts S64x16384
  reduces_S64x16384_S64 : S64x16384.Reduces [1] S64
  shapeCasts_S64_S64x1 : S64.ShapeCasts S64x1
  bitsLt_bf16_f32 : FTy.bits .bf16 < FTy.bits .f32
  transposes_S64x16384_p1_0_S16384x64 : S64x16384.Transposes [1, 0] S16384x64
  transposes_S64x1_p1_0_S1x64 : S64x1.Transposes [1, 0] S1x64
  broadcasts_S64x1_S64x64 : S64x1.Broadcasts S64x64
  broadcasts_S1x64_S64x64 : S1x64.Broadcasts S64x64
  shapeCasts_S64x64_S64x64 : S64x64.ShapeCasts S64x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S_S64x1 : S_.BroadcastsInDim S64x1 (![] : Fin 0 → Fin S64x1.rank)
  bcast_S_S1x64 : S_.BroadcastsInDim S1x64 (![] : Fin 0 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_
  h_S_ : 0 < S_.numel
  dot_S64x16384_S16384x64_S64x64_1_0_0_1_n_n_wf : DotDims.WF S64x16384 S16384x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16384.size a ≤ S32x64x16384.size a
  hwx0_0 : ∀ i : grid0.Coords, EltTy.bits .f32 = 32 ∨ (Rect.block (s := S32x64x16384) S1x64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)

variable [Facts₀]

def dot_S64x16384_S16384x64_S64x64_1_0_0_1_n_n : DotDims S64x16384 S16384x64 S64x64 where
  lhsContracting := [1]
  rhsContracting := [0]
  lhsNonContracting := [0]
  rhsNonContracting := [1]
  lhsBatch := []
  rhsBatch := []
  wf := dot_S64x16384_S16384x64_S64x64_1_0_0_1_n_n_wf

abbrev win0_0 : Pipeline.Window sig grid0 :=
  Pipeline.Window.ofSpec (Memref.whole main_v0) S1x64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x128x128 : Shape := ⟨4, ![32, 64, 128, 128]⟩
abbrev S64 : Shape := ⟨1, ![64]⟩
abbrev S_ : Shape := ⟨0, ![]⟩
abbrev S32x64x16384 : Shape := ⟨3, ![32, 64, 16384]⟩
abbrev S32x64x64 : Shape := ⟨3, ![32, 64, 64]⟩
abbrev S32x64 : Shape := ⟨2, ![32, 64]⟩
abbrev S32x64x1 : Shape := ⟨3, ![32, 64, 1]⟩
abbrev S32x1x64 : Shape := ⟨3, ![32, 1, 64]⟩
abbrev S64x64 : Shape := ⟨2, ![64, 64]⟩
abbrev S64x1 : Shape := ⟨2, ![64, 1]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S64, .i32⟩
  | .hbm, ⟨2, _⟩ => ⟨S_, .f32⟩
  | .hbm, ⟨3, _⟩ => ⟨S32x64x128x128, .f32⟩
  | .hbm, ⟨4, _⟩ => ⟨S32x64x128x128, .f32⟩
  | .hbm, ⟨5, _⟩ => ⟨S_, .f32⟩
  | .hbm, ⟨6, _⟩ => ⟨S32x64x128x128, .f32⟩
  | .hbm, ⟨7, _⟩ => ⟨S32x64x128x128, .f32⟩
  | .hbm, ⟨8, _⟩ => ⟨S_, .f32⟩
  | .hbm, ⟨9, _⟩ => ⟨S_, .f32⟩
  | .hbm, ⟨10, _⟩ => ⟨S32x64x128x128, .f32⟩
  | .hbm, ⟨11, _⟩ => ⟨S32x64x128x128, .f32⟩
  | .hbm, ⟨12, _⟩ => ⟨S32x64x16384, .f32⟩
  | .hbm, ⟨13, _⟩ => ⟨S32x64x64, .f32⟩
  | .hbm, ⟨14, _⟩ => ⟨S_, .f32⟩
  | .hbm, ⟨15, _⟩ => ⟨S32x64, .f32⟩
  | .hbm, ⟨16, _⟩ => ⟨S32x64x1, .f32⟩
  | .hbm, ⟨17, _⟩ => ⟨S32x1x64, .f32⟩
  | .hbm, ⟨18, _⟩ => ⟨S32x64x64, .f32⟩
  | .hbm, ⟨19, _⟩ => ⟨S32x64x64, .f32⟩
  | .hbm, ⟨20, _⟩ => ⟨S32x64x64, .f32⟩
  | .hbm, ⟨21, _⟩ => ⟨S32x64x64, .f32⟩
  | .hbm, ⟨22, _⟩ => ⟨S_, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i1⟩
  | .hbm, ⟨33, _⟩ => ⟨S_, .i32⟩
  | .hbm, ⟨34, _⟩ => ⟨S_, .i32⟩
  | .hbm, ⟨35, _⟩ => ⟨S64, .i32⟩
  | .hbm, ⟨36, _⟩ => ⟨S64, .i32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64x1, .i32⟩
  | .hbm, ⟨42, _⟩ => ⟨S1x64, .i32⟩
  | .hbm, ⟨43, _⟩ => ⟨S_, .i32⟩
  | .hbm, ⟨44, _⟩ => ⟨S64x1, .i32⟩
  | .hbm, ⟨45, _⟩ => ⟨S64x1, .i1⟩
  | .hbm, ⟨46, _⟩ => ⟨S_, .i32⟩
  | .hbm, ⟨47, _⟩ => ⟨S1x64, .i32⟩
  | .hbm, ⟨48, _⟩ => ⟨S1x64, .i1⟩
  | .hbm, ⟨49, _⟩ => ⟨S_, .i1⟩
  | .hbm, ⟨50, _⟩ => ⟨S64x1, .i1⟩
  | .hbm, ⟨51, _⟩ => ⟨S64x1, .i1⟩
  | .hbm, ⟨52, _⟩ => ⟨S64x1, .i1⟩
  | .hbm, ⟨53, _⟩ => ⟨S_, .i1⟩
  | .hbm, ⟨54, _⟩ => ⟨S1x64, .i1⟩
  | .hbm, ⟨55, _⟩ => ⟨S1x64, .i1⟩
  | .hbm, ⟨56, _⟩ => ⟨S1x64, .i1⟩
  | .hbm, ⟨57, _⟩ => ⟨S64x64, .i1⟩
  | .hbm, ⟨58, _⟩ => ⟨S64x64, .i1⟩
  | .hbm, ⟨59, _⟩ => ⟨S64x64, .i1⟩
  | .hbm, ⟨60, _⟩ => ⟨S_, .i32⟩
  | .hbm, ⟨61, _⟩ => ⟨S64x1, .i32⟩
  | .hbm, ⟨62, _⟩ => ⟨S64x1, .i1⟩
  | .hbm, ⟨63, _⟩ => ⟨S_, .i32⟩
  | .hbm, ⟨64, _⟩ => ⟨S1x64, .i32⟩
  | .hbm, ⟨65, _⟩ => ⟨S1x64, .i1⟩
  | .hbm, ⟨66, _⟩ => ⟨S_, .i1⟩
  | .hbm, ⟨67, _⟩ => ⟨S64x1, .i1⟩
  | .hbm, ⟨68, _⟩ => ⟨S64x1, .i1⟩
  | .hbm, ⟨69, _⟩ => ⟨S64x1, .i1⟩
  | .hbm, ⟨70, _⟩ => ⟨S_, .i1⟩
  | .hbm, ⟨71, _⟩ => ⟨S1x64, .i1⟩
  | .hbm, ⟨72, _⟩ => ⟨S1x64, .i1⟩
  | .hbm, ⟨73, _⟩ => ⟨S1x64, .i1⟩
  | .hbm, ⟨74, _⟩ => ⟨S64x64, .i1⟩
  | .hbm, ⟨75, _⟩ => ⟨S64x64, .i1⟩
  | .hbm, ⟨76, _⟩ => ⟨S64x64, .i1⟩
  | .hbm, ⟨77, _⟩ => ⟨S64x64, .i1⟩
  | .hbm, ⟨78, _⟩ => ⟨S64x64, .i1⟩
  | .hbm, ⟨79, _⟩ => ⟨S64x64, .i1⟩
  | .hbm, ⟨80, _⟩ => ⟨S_, .i32⟩
  | .hbm, ⟨81, _⟩ => ⟨S64x1, .i32⟩
  | .hbm, ⟨82, _⟩ => ⟨S64x1, .i1⟩
  | .hbm, ⟨83, _⟩ => ⟨S_, .i32⟩
  | .hbm, ⟨84, _⟩ => ⟨S1x64, .i32⟩
  | .hbm, ⟨85, _⟩ => ⟨S1x64, .i1⟩
  | .hbm, ⟨86, _⟩ => ⟨S_, .i1⟩
  | .hbm, ⟨87, _⟩ => ⟨S64x1, .i1⟩
  | .hbm, ⟨88, _⟩ => ⟨S64x1, .i1⟩
  | .hbm, ⟨89, _⟩ => ⟨S64x1, .i1⟩
  | .hbm, ⟨90, _⟩ => ⟨S_, .i1⟩
  | .hbm, ⟨91, _⟩ => ⟨S1x64, .i1⟩
  | .hbm, ⟨92, _⟩ => ⟨S1x64, .i1⟩
  | .hbm, ⟨93, _⟩ => ⟨S1x64, .i1⟩
  | .hbm, ⟨94, _⟩ => ⟨S64x64, .i1⟩
  | .hbm, ⟨95, _⟩ => ⟨S64x64, .i1⟩
  | .hbm, ⟨96, _⟩ => ⟨S64x64, .i1⟩
  | .hbm, ⟨97, _⟩ => ⟨S64x64, .f32⟩
  | .hbm, ⟨98, _⟩ => ⟨S_, .i1⟩
  | .hbm, ⟨99, _⟩ => ⟨S64x64, .i1⟩
  | .hbm, ⟨100, _⟩ => ⟨S64x64, .i32⟩
  | .hbm, ⟨101, _⟩ => ⟨S_, .i32⟩
  | .hbm, ⟨102, _⟩ => ⟨S64x64, .i32⟩
  | .hbm, ⟨103, _⟩ => ⟨S64x64, .i32⟩
  | .hbm, ⟨104, _⟩ => ⟨S64x64, .i32⟩
  | .hbm, ⟨105, _⟩ => ⟨S64x64, .i1⟩
  | .hbm, ⟨106, _⟩ => ⟨S_, .i1⟩
  | .hbm, ⟨107, _⟩ => ⟨S64x64, .i1⟩
  | .hbm, ⟨108, _⟩ => ⟨S64x64, .i1⟩
  | .hbm, ⟨109, _⟩ => ⟨S64x64, .i1⟩
  | .hbm, ⟨110, _⟩ => ⟨S64x64, .f32⟩
  | .hbm, ⟨111, _⟩ => ⟨S64x64, .f32⟩
  | .hbm, ⟨112, _⟩ => ⟨S64x64, .f32⟩
  | .hbm, ⟨113, _⟩ => ⟨S64x64, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_c_7 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_c_8 : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_9 : Ref sig .tc := ⟨.hbm, 43, rfl⟩
abbrev main_v25 : Ref sig .tc := ⟨.hbm, 44, rfl⟩
abbrev main_v26 : Ref sig .tc := ⟨.hbm, 45, rfl⟩
abbrev main_c_10 : Ref sig .tc := ⟨.hbm, 46, rfl⟩
abbrev main_v27 : Ref sig .tc := ⟨.hbm, 47, rfl⟩
abbrev main_v28 : Ref sig .tc := ⟨.hbm, 48, rfl⟩
abbrev main_c_11 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_12 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_13 : Ref sig .tc := ⟨.hbm, 60, rfl⟩
abbrev main_v38 : Ref sig .tc := ⟨.hbm, 61, rfl⟩
abbrev main_v39 : Ref sig .tc := ⟨.hbm, 62, rfl⟩
abbrev main_c_14 : Ref sig .tc := ⟨.hbm, 63, rfl⟩
abbrev main_v40 : Ref sig .tc := ⟨.hbm, 64, rfl⟩
abbrev main_v41 : Ref sig .tc := ⟨.hbm, 65, rfl⟩
abbrev main_c_15 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_16 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_17 : Ref sig .tc := ⟨.hbm, 80, rfl⟩
abbrev main_v54 : Ref sig .tc := ⟨.hbm, 81, rfl⟩
abbrev main_v55 : Ref sig .tc := ⟨.hbm, 82, rfl⟩
abbrev main_c_18 : Ref sig .tc := ⟨.hbm, 83, rfl⟩
abbrev main_v56 : Ref sig .tc := ⟨.hbm, 84, rfl⟩
abbrev main_v57 : Ref sig .tc := ⟨.hbm, 85, rfl⟩
abbrev main_c_19 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_20 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_21 : Ref sig .tc := ⟨.hbm, 98, rfl⟩
abbrev main_v68 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_c_0 : Ref sig .tc := ⟨.hbm, 106, rfl⟩
abbrev main_call3_v5 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_22 : Ref sig .tc := ⟨.hbm, 114, rfl⟩
abbrev main_v75 : Ref sig .tc := ⟨.hbm, 115, rfl⟩
abbrev main_cst_23 : Ref sig .tc := ⟨.hbm, 116, rfl⟩
abbrev main_v76 : Ref sig .tc := ⟨.hbm, 117, rfl⟩
abbrev main_v77 : Ref sig .tc := ⟨.hbm, 118, rfl⟩

abbrev nD : Nat := 1
abbrev τ : Topo := Topo.v7x

variable {F : FTy → Type} [FloatOps F]

class Facts₀ : Prop where
  bcast_S_S32x64x128x128 : S_.BroadcastsInDim S32x64x128x128 (![] : Fin 0 → Fin S32x64x128x128.rank)
  shapeCasts_S32x64x128x128_S32x64x16384 : S32x64x128x128.ShapeCasts S32x64x16384
  reducesTo_S32x64x16384_S32x64_d2 : S32x64x16384.ReducesTo [2] S32x64
  h_S_ : 0 < S_.numel
  bcast_S32x64_S32x64x1_0_1 : S32x64.BroadcastsInDim S32x64x1 (![0, 1] : Fin 2 → Fin S32x64x1.rank)
  bcast_S32x64_S32x1x64_0_2 : S32x64.BroadcastsInDim S32x1x64 (![0, 2] : Fin 2 → Fin S32x1x64.rank)
  bcast_S32x64x1_S32x64x64_0_1_2 : S32x64x1.BroadcastsInDim S32x64x64 (![0, 1, 2] : Fin 3 → Fin S32x64x64.rank)
  bcast_S32x1x64_S32x64x64_0_1_2 : S32x1x64.BroadcastsInDim S32x64x64 (![0, 1, 2] : Fin 3 → Fin S32x64x64.rank)
  reducesTo_S32x64x64_S64x64_d0 : S32x64x64.ReducesTo [0] S64x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S_S64x1 : S_.BroadcastsInDim S64x1 (![] : Fin 0 → Fin S64x1.rank)
  bcast_S_S1x64 : S_.BroadcastsInDim S1x64 (![] : Fin 0 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_
  dot_S32x64x16384_S32x64x16384_S32x64x64_2_2_1_1_0_0_wf : DotDims.WF S32x64x16384 S32x64x16384 S32x64x64 [2] [2] [1] [1] [0] [0]

variable [Facts₀]

def dot_S32x64x16384_S32x64x16384_S32x64x64_2_2_1_1_0_0 : DotDims S32x64x16384 S32x64x16384 S32x64x64 where
  lhsContracting := [2]
  rhsContracting := [2]
  lhsNonContracting := [1]
  rhsNonContracting := [1]
  lhsBatch := [0]
  rhsBatch := [0]
  wf := dot_S32x64x16384_S32x64x16384_S32x64x64_2_2_1_1_0_0_wf

class Facts : Prop extends Facts₀ where

variable [Facts]
-- ==== Proof.KKit.lean ====
/-
  The program around its one region, for the frame.

  @main is: one reshape of the masks (into the array the region's input window reads), the region (32 grid
  points, one per batch element), and then 95 host operations in seven stretches that never write either
  array of the region (the reshaped masks, the 64×64 accumulator) and touch only buffers that outlive
  the region.  This module states those facts in the form the library's launch theorem takes them, names the
  contents every buffer has when the region is entered, the block of the masks the input window holds at a
  grid point, and the one branch condition of the kernel body ("this is the first grid point"), decided over
  the grid; and it reads the frame claim's postcondition off the library's.
-/
import proofs.«169511_j78881369358863_1_alg».proof.Proof.Gen.Kernel.Launch
import proofs.«169511_j78881369358863_1_alg».proof.Proof.Gen.Kernel.Skeleton
import proofs.«169511_j78881369358863_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the block's extents is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: the launch contents after the reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation of @main allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region continued by the seven later stretches, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps
    (by simp only [List.Forall]; exact hostOps0_sub)
    (by simp only [List.Forall]; exact hostOps0_fresh) main_chain

/-- The later stretches touch only the region's arrays and buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- "Writes none of the four buffers the certificate speaks of": the reshaped masks and the accumulator (the
    region's two arrays) and @main's two arguments. -/
abbrev Spares (op : HloOp τ sig (Elt F)) : Prop :=
  Proc.devRef .tc main_v0 ∉ op.writes ∧ Proc.devRef .tc main_v1 ∉ op.writes
    ∧ Proc.devRef .tc main_arg0 ∉ op.writes ∧ Proc.devRef .tc main_arg1 ∉ op.writes

/-- Each operation of a stretch writes its own result buffer only, and no result buffer of the tail is one of
    those four: decided reference by reference. -/
theorem hostOps1_spares : (hostOps1 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_1_spares : (hostOps1_1 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_2_spares : (hostOps1_2 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_3_spares : (hostOps1_3 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_4_spares : (hostOps1_4 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_5_spares : (hostOps1_5 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_6_spares : (hostOps1_6 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)

/-- Every operation of the tail spares the four buffers. -/
theorem tail_spares : ∀ ops ∈ (tailOps : List (List (HloOp τ sig (Elt F)))), ∀ op ∈ ops, Spares op := by
  intro ops hops op hop
  simp only [List.mem_cons, List.mem_nil_iff, or_false] at hops
  rcases hops with rfl | rfl | rfl | rfl | rfl | rfl | rfl
  · exact (List.forall_iff_forall_mem.mp hostOps1_spares) op hop
  · exact (List.forall_iff_forall_mem.mp hostOps1_1_spares) op hop
  · exact (List.forall_iff_forall_mem.mp hostOps1_2_spares) op hop
  · exact (List.forall_iff_forall_mem.mp hostOps1_3_spares) op hop
  · exact (List.forall_iff_forall_mem.mp hostOps1_4_spares) op hop
  · exact (List.forall_iff_forall_mem.mp hostOps1_5_spares) op hop
  · exact (List.forall_iff_forall_mem.mp hostOps1_6_spares) op hop

/-- The later stretches write no array of the region. -/
theorem tail_keeps : ∀ ops ∈ (tailOps : List (List (HloOp τ sig (Elt F)))), ∀ op ∈ ops,
    ∀ w, Proc.devRef .tc (Pipeline.arrRef spec0 w) ∉ op.writes := by
  intro ops hops op hop w
  have h := tail_spares ops hops op hop
  fin_cases w
  · exact h.1
  · exact h.2.1

/-- The reshape writes its own result only: both arguments of @main enter the region as launched. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results

/-! ## The input window's blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- "The grid coordinate is zero", as the body computes it. -/
abbrev isFirst (i : grid0.Coords) : Prop := (Scalar.cmpi .ne (Scalar.extui (Scalar.cmpi .eq (BitVec.ofNat 32 (i 0).val) 0#32)) 0#32) = 1#1
/-- It holds at the first of the 32 points and at no other. -/
theorem isFirst_iff : ∀ t : Fin cfg0.N, isFirst (grid0.coords t) ↔ t.val = 0 :=
  (by decide +kernel : ∀ t : Fin grid0.N, isFirst (grid0.coords t) ↔ t.val = 0)

/-! ## Staging memrefs -/

/-- One staging buffer of the accumulator's window, through which its contents are stated. -/
abbrev accView : View sig .tc .vmem S64x64 .f32 := (Memref.whole cc0_stg1_0 : Memref sig .tc .vmem S64x64 .f32).view
/-- Each window's current staging memref at point `t`, as the pipeline passes it to the body, and its wholeness. -/
abbrev ms0 (t : Fin cfg0.N) : Memref sig .tc .vmem S1x64x16384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x64 .f32 := win0_1.stage (cfg0.slots t 1)
abbrev hs1 (t : Fin cfg0.N) : (ms1 t).IsWhole := hstage0_1 ((cfg0.slots t 1).cast nbuf0_1)

/-! ## The frame claim's post from the frame run's -/

/-- A buffer that is no array of the region and that no operation of the tail writes is, after the tail, at its
    region-entry contents. -/
theorem afterTail_spared (dats : (p : Fin 1) → (c : Dev nD) → Dat τ (Elt F) Unit ℕ (UR sig nD τ) ℕ (cfgs p) c) (c : Dev nD) (b : Ref sig .tc)
    (hb : ∀ w, Pipeline.arrRef spec0 w ≠ b)
    (hw : ∀ ops ∈ (tailOps : List (List (HloOp τ sig (Elt F)))), ∀ op ∈ ops, Proc.devRef .tc b ∉ op.writes) :
    Pipeline.afterTail₀ cfgs dats 0 (V0 m) tailOps c b = V m c b := by
  unfold Pipeline.afterTail₀
  rw [StableHlo.after_of_forall_not_mem _ _ (fun op hop => ?_), Pipeline.withArrays_of_ne _ c (V0 m c) _ b hb]
  obtain ⟨ops, hops, hop'⟩ := List.mem_flatten.mp hop
  exact hw ops hops op hop'

/-- The library's frame post after the tail, read at @main's two arguments: neither is an array of the region nor
    written by the tail, so each is at its region-entry contents, which are the launch contents. -/
theorem args_of_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 rfl (by intro w; fin_cases w <;> decide))).trans
      ((afterTail_spared m dats c main_arg0 (by intro w; fin_cases w <;> decide)
        (fun ops hops op hop => (tail_spares ops hops op hop).2.2.1)).trans (V_main_arg0 m c)),
   ((h c).2 main_arg1 (Pipeline.mem_restRefs_of main_arg1 rfl (by intro w; fin_cases w <;> decide))).trans
      ((afterTail_spared m dats c main_arg1 (by intro w; fin_cases w <;> decide)
        (fun ops hops op hop => (tail_spares ops hops op hop).2.2.2)).trans (V_main_arg1 m c))⟩

/-- So a run to that post is the frame claim's run. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => args_of_post m dats r h c) h

end Cert.Kernel.Hand

end
-- ==== Proof.KRun.lean ====
/-
  The kernel body run once, in each of its two cases.

  At the first grid point the body stores zeros into the accumulator's buffer and then, as at every point,
  loads the mask block and the accumulator, and stores accumulator + ratio back.  So the buffer's final contents
  are described by its list of stores ("pieces", last first): two whole-block stores at the first point, one
  at every later point.  Each run below is the body's triple on arbitrary whole staging buffers, the input's at
  given contents; at the first point the accumulator's buffer may hold anything (the body reads it only after
  zeroing it), at a later point it holds the running contents.  The pieces are found by running the body.
-/
import proofs.«169511_j78881369358863_1_alg».proof.Proof.KKit

-- membership in a rectangle of the block's extents is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body at the FIRST grid point: the pieces it leaves in the accumulator's buffer, with the proof that from
    the input's buffer at `x0` and the accumulator's at anything it runs to the continuation holding the input's as
    it was and the accumulator's with those pieces written. -/
noncomputable def runFirst (c : Dev nD) (i : grid0.Coords) (arg1 : Memref sig .tc .vmem S1x64x16384 .f32) (harg1 : arg1.IsWhole)
    (arg2 : Memref sig .tc .vmem S64x64 .f32) (harg2 : arg2.IsWhole) (hc0 : isFirst i)
    (x0 : Vec F S1x64x16384 .f32) :
    { L1 : List (View.Piece (Elt F) S64x64 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__gram_kernel i arg1 harg1 arg2 harg2) K } := by
  refine ⟨?_, fun E K => ?run⟩
  case run =>
    simp only [cc0__gram_kernel_eq_skeleton]; unfold cc0__gram_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- The body at a LATER grid point: the same, the accumulator's buffer entering at the running contents `acc`. -/
noncomputable def runLater (c : Dev nD) (i : grid0.Coords) (arg1 : Memref sig .tc .vmem S1x64x16384 .f32) (harg1 : arg1.IsWhole)
    (arg2 : Memref sig .tc .vmem S64x64 .f32) (harg2 : arg2.IsWhole) (hc0 : ¬isFirst i)
    (x0 : Vec F S1x64x16384 .f32) (acc : Vec F S64x64 .f32) :
    { L1 : List (View.Piece (Elt F) S64x64 .f32) //
      ∀ (E : Set ℕ) (K : PUnit → sProp 𝕄),
        iprop(owns (c : Thread nD τ) arg1 fullShare x0 ∗ owns (c : Thread nD τ) arg2 fullShare acc
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__gram_kernel i arg1 harg1 arg2 harg2) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

end Cert.Kernel.Hand

end
-- ==== Proof.KFrame.lean ====
/-
  The frame of the program: the proof data of its one pipeline, the body obligation at every grid point, the
  run of @main, and the frame claim.

  What the accumulator's staging buffer holds after the body at point n is defined by recursion on n: at
  point 0 what the first-point run leaves from the mask block of batch element 0, at point n + 1 what the
  later-point run leaves from the block of batch element n + 1 over what point n left.  The pipeline writes
  the accumulator back only after the last point, so between two points the buffer is untouched and the body
  at point n + 1 indeed finds what point n left.  The input window is fetched at every point and only read.
-/
import proofs.«169511_j78881369358863_1_alg».proof.Proof.KRun

-- membership in a rectangle of the block's extents is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-point run's two stores each cover the whole block. -/
theorem coverFirst (c : Dev nD) (i : grid0.Coords) (arg1 : Memref sig .tc .vmem S1x64x16384 .f32) (harg1 : arg1.IsWhole)
    (arg2 : Memref sig .tc .vmem S64x64 .f32) (harg2 : arg2.IsWhole) (hc0 : isFirst i)
    (x0 : Vec F S1x64x16384 .f32) (y : S64x64.Idx) :
    ∃ pc ∈ (runFirst c i arg1 harg1 arg2 harg2 hc0 x0).1, y ∈ pc.1.set :=
  View.cover_of_tiledL (runFirst c i arg1 harg1 arg2 harg2 hc0 x0).1 S64x64.size (by sl_kernel_rfl) y

/-- What the first point leaves in the accumulator's buffer: its pieces read back. -/
def accFirst (c : Dev nD) (i : grid0.Coords) (arg1 : Memref sig .tc .vmem S1x64x16384 .f32) (harg1 : arg1.IsWhole)
    (arg2 : Memref sig .tc .vmem S64x64 .f32) (harg2 : arg2.IsWhole) (hc0 : isFirst i)
    (x0 : Vec F S1x64x16384 .f32) : Vec F S64x64 .f32 :=
  accView.read (Elt F) (accView.writes (Elt F) accView.junk (runFirst c i arg1 harg1 arg2 harg2 hc0 x0).1)

/-- A later point's one store covers the whole block. -/
theorem coverLater (c : Dev nD) (i : grid0.Coords) (arg1 : Memref sig .tc .vmem S1x64x16384 .f32) (harg1 : arg1.IsWhole)
    (arg2 : Memref sig .tc .vmem S64x64 .f32) (harg2 : arg2.IsWhole) (hc0 : ¬isFirst i)
    (x0 : Vec F S1x64x16384 .f32) (acc : Vec F S64x64 .f32) (y : S64x64.Idx) :
    ∃ pc ∈ (runLater c i arg1 harg1 arg2 harg2 hc0 x0 acc).1, y ∈ pc.1.set :=
  View.cover_of_tiledL (runLater c i arg1 harg1 arg2 harg2 hc0 x0 acc).1 S64x64.size (by sl_kernel_rfl) y

/-- What a later point leaves in the accumulator's buffer, from the running contents `acc`. -/
def accLater (c : Dev nD) (i : grid0.Coords) (arg1 : Memref sig .tc .vmem S1x64x16384 .f32) (harg1 : arg1.IsWhole)
    (arg2 : Memref sig .tc .vmem S64x64 .f32) (harg2 : arg2.IsWhole) (hc0 : ¬isFirst i)
    (x0 : Vec F S1x64x16384 .f32) (acc : Vec F S64x64 .f32) : Vec F S64x64 .f32 :=
  accView.read (Elt F) (accView.writes (Elt F) accView.junk (runLater c i arg1 harg1 arg2 harg2 hc0 x0 acc).1)

/-! ## The accumulator, point by point -/

/-- The accumulator's buffer after the body at position `n`. -/
def accAt (c : Dev nD) : (n : ℕ) → n < cfg0.N → Vec F S64x64 .f32
  | 0, hn => accFirst c (grid0.coords ⟨0, hn⟩) (ms0 ⟨0, hn⟩) (hs0 ⟨0, hn⟩) (ms1 ⟨0, hn⟩) (hs1 ⟨0, hn⟩) ((isFirst_iff ⟨0, hn⟩).mpr rfl) (iblk m c 0 ⟨0, hn⟩)
  | n + 1, hn =>
      accLater c (grid0.coords ⟨n + 1, hn⟩) (ms0 ⟨n + 1, hn⟩) (hs0 ⟨n + 1, hn⟩) (ms1 ⟨n + 1, hn⟩) (hs1 ⟨n + 1, hn⟩)
        (fun h => Nat.succ_ne_zero n ((isFirst_iff ⟨n + 1, hn⟩).mp h)) (iblk m c 0 ⟨n + 1, hn⟩) (accAt c n (Nat.lt_of_succ_lt hn))

/-- `accAt` at the first point. -/
theorem accAt_first (c : Dev nD) (t : Fin cfg0.N) (h0 : t.val = 0) :
    accAt m c t.val t.isLt = accFirst c (grid0.coords t) (ms0 t) (hs0 t) (ms1 t) (hs1 t) ((isFirst_iff t).mpr h0) (iblk m c 0 t) := by
  obtain ⟨n, hn⟩ := t
  cases n with
  | zero => rfl
  | succ n => exact absurd h0 (Nat.succ_ne_zero n)

/-- `accAt` at a later point: over what the point before left. -/
theorem accAt_later (c : Dev nD) (t : Fin cfg0.N) (h0 : t.val ≠ 0) :
    accAt m c t.val t.isLt = accLater c (grid0.coords t) (ms0 t) (hs0 t) (ms1 t) (hs1 t) (fun h => h0 ((isFirst_iff t).mp h)) (iblk m c 0 t)
      (accAt m c (t.val - 1) (Nat.lt_of_le_of_lt (Nat.sub_le _ _) t.isLt)) := by
  obtain ⟨n, hn⟩ := t
  cases n with
  | zero => exact absurd rfl h0
  | succ n => rfl

/-! ## The pipeline's proof data -/

/-- The proof data on core `c`: the arrays as the region finds them; after the body at point `t` the input's buffer
    at its block and the accumulator's at `accAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (accAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = (accAt m c t.val t.isLt) := by dsimp only [dats]

/-- The input's current staging buffer holds its block at every point. -/
theorem before0 (c : Dev nD) (t : Fin cfg0.N) (d) : (dats m 0 c).before 0 t d = iblk m c 0 t :=
  before0_0_of m (dats m 0 c) (A_eq m c 0) (after0 m c) t d

/-- At a later point the accumulator's buffer holds what the body left at the point before: it was not written back
    between (that happens after the last point only), the window is live and uncut. -/
theorem before1_later (c : Dev nD) (t : Fin cfg0.N) (h0 : t.val ≠ 0) (d) :
    (dats m 0 c).before 1 t d = (accAt m c (t.val - 1) (Nat.lt_of_le_of_lt (Nat.sub_le _ _) t.isLt)) := by
  have hN : t.val < 32 := lt_of_lt_of_eq t.isLt (show cfg0.N = 32 from N_0)
  rw [Dat.before_out_kept _ 1 rfl t h0 (Bool.eq_false_iff.mpr fun h => by have := (flush0_1 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

set_option maxHeartbeats 800000 in
/-- The body at any point: the input's buffer holds its block; at the first point the accumulator's buffer may hold
    anything, at a later one it holds what the point before left; so the matching run applies, and what it
    leaves is `accAt` at this point because its stores cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1]
  by_cases h0 : t.val = 0
  · rw [accAt_first m c t h0]
    unfold accFirst
    iintro ⟨HΦ, Ho, ⟨%d0, H0⟩, ⟨%d1, H1⟩⟩
    iapply ((runFirst c (grid0.coords t) _ _ _ _ ((isFirst_iff t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _)
  · rw [accAt_later m c t h0]
    simp only [before1_later m c t h0]
    unfold accLater
    iintro ⟨HΦ, Ho, ⟨%d0, H0⟩, ⟨%d1, H1⟩⟩
    iapply ((runLater c (grid0.coords t) _ _ _ _ (fun h => h0 ((isFirst_iff t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverLater c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions in a metavariable's type
set_option backward.isDefEq.respectTransparency.types false in
/-- From any memory with zero counters every weakly fair execution of @main terminates, and every final state has
    the region's two arrays at what the library computes from the proof data and every other unscoped buffer as
    the tail leaves it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: @main runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KIKit.lean ====
/-
  The program around its one region, for the frame.

  @main is: one reshape of the masks (into the array the region's input window reads), the region (32 grid
  points, one per batch element), and then 95 host operations in seven stretches that never write either
  array of the region (the reshaped masks, the 64×64 accumulator) and touch only buffers that outlive
  the region.  This module states those facts in the form the library's launch theorem takes them, names the
  contents every buffer has when the region is entered, the block of the masks the input window holds at a
  grid point, and the one branch condition of the kernel body ("this is the first grid point"), decided over
  the grid; and it reads the frame claim's postcondition off the library's.
-/
import proofs.«169511_j78881369358863_1_alg».proof.Proof.Gen.KernelIdeal.Launch
import proofs.«169511_j78881369358863_1_alg».proof.Proof.Gen.KernelIdeal.Skeleton
import proofs.«169511_j78881369358863_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the block's extents is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: the launch contents after the reshape. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation of @main allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region continued by the seven later stretches, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps
    (by simp only [List.Forall]; exact hostOps0_sub)
    (by simp only [List.Forall]; exact hostOps0_fresh) main_chain

/-- The later stretches touch only the region's arrays and buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem tail_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- "Writes none of the four buffers the certificate speaks of": the reshaped masks and the accumulator (the
    region's two arrays) and @main's two arguments. -/
abbrev Spares (op : HloOp τ sig (Elt F)) : Prop :=
  Proc.devRef .tc main_v0 ∉ op.writes ∧ Proc.devRef .tc main_v1 ∉ op.writes
    ∧ Proc.devRef .tc main_arg0 ∉ op.writes ∧ Proc.devRef .tc main_arg1 ∉ op.writes

/-- Each operation of a stretch writes its own result buffer only, and no result buffer of the tail is one of
    those four: decided reference by reference. -/
theorem hostOps1_spares : (hostOps1 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_1_spares : (hostOps1_1 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_2_spares : (hostOps1_2 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_3_spares : (hostOps1_3 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_4_spares : (hostOps1_4 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_5_spares : (hostOps1_5 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)
theorem hostOps1_6_spares : (hostOps1_6 : List (HloOp τ sig (Elt F))).Forall Spares := by
  simp only [List.Forall]; repeat' constructor
  all_goals simp only [StableHlo.nullary_writes, StableHlo.unary_writes, StableHlo.binary_writes, StableHlo.ternary_writes, Finset.mem_singleton] <;> exact StableHlo.devRef_ne_of_ne (by decide)

/-- Every operation of the tail spares the four buffers. -/
theorem tail_spares : ∀ ops ∈ (tailOps : List (List (HloOp τ sig (Elt F)))), ∀ op ∈ ops, Spares op := by
  intro ops hops op hop
  simp only [List.mem_cons, List.mem_nil_iff, or_false] at hops
  rcases hops with rfl | rfl | rfl | rfl | rfl | rfl | rfl
  · exact (List.forall_iff_forall_mem.mp hostOps1_spares) op hop
  · exact (List.forall_iff_forall_mem.mp hostOps1_1_spares) op hop
  · exact (List.forall_iff_forall_mem.mp hostOps1_2_spares) op hop
  · exact (List.forall_iff_forall_mem.mp hostOps1_3_spares) op hop
  · exact (List.forall_iff_forall_mem.mp hostOps1_4_spares) op hop
  · exact (List.forall_iff_forall_mem.mp hostOps1_5_spares) op hop
  · exact (List.forall_iff_forall_mem.mp hostOps1_6_spares) op hop

/-- The later stretches write no array of the region. -/
theorem tail_keeps : ∀ ops ∈ (tailOps : List (List (HloOp τ sig (Elt F)))), ∀ op ∈ ops,
    ∀ w, Proc.devRef .tc (Pipeline.arrRef spec0 w) ∉ op.writes := by
  intro ops hops op hop w
  have h := tail_spares ops hops op hop
  fin_cases w
  · exact h.1
  · exact h.2.1

/-- The reshape writes its own result only: both arguments of @main enter the region as launched. -/
theorem V_main_arg0 (c : Dev nD) : V m c main_arg0 = m ((c : Thread nD τ).loc main_arg0) := by
  show StableHlo.after hostOps0 (fun b => m (c, b)) (Proc.devRef .tc main_arg0) = _
  after_results
theorem V_main_arg1 (c : Dev nD) : V m c main_arg1 = m ((c : Thread nD τ).loc main_arg1) := by
  show StableHlo.after hostOps0 (fun b => m (c, b)) (Proc.devRef .tc main_arg1) = _
  after_results

/-! ## The input window's blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- "The grid coordinate is zero", as the body computes it. -/
abbrev isFirst (i : grid0.Coords) : Prop := (Scalar.cmpi .ne (Scalar.extui (Scalar.cmpi .eq (BitVec.ofNat 32 (i 0).val) 0#32)) 0#32) = 1#1
/-- It holds at the first of the 32 points and at no other. -/
theorem isFirst_iff : ∀ t : Fin cfg0.N, isFirst (grid0.coords t) ↔ t.val = 0 :=
  (by decide +kernel : ∀ t : Fin grid0.N, isFirst (grid0.coords t) ↔ t.val = 0)

/-! ## Staging memrefs -/

/-- One staging buffer of the accumulator's window, through which its contents are stated. -/
abbrev accView : View sig .tc .vmem S64x64 .f32 := (Memref.whole cc0_stg1_0 : Memref sig .tc .vmem S64x64 .f32).view
/-- Each window's current staging memref at point `t`, as the pipeline passes it to the body, and its wholeness. -/
abbrev ms0 (t : Fin cfg0.N) : Memref sig .tc .vmem S1x64x16384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x64 .f32 := win0_1.stage (cfg0.slots t 1)
abbrev hs1 (t : Fin cfg0.N) : (ms1 t).IsWhole := hstage0_1 ((cfg0.slots t 1).cast nbuf0_1)

/-! ## The frame claim's post from the frame run's -/

/-- A buffer that is no array of the region and that no operation of the tail writes is, after the tail, at its
    region-entry contents. -/
theorem afterTail_spared (dats : (p : Fin 1) → (c : Dev nD) → Dat τ (Elt F) Unit ℕ (UR sig nD τ) ℕ (cfgs p) c) (c : Dev nD) (b : Ref sig .tc)
    (hb : ∀ w, Pipeline.arrRef spec0 w ≠ b)
    (hw : ∀ ops ∈ (tailOps : List (List (HloOp τ sig (Elt F)))), ∀ op ∈ ops, Proc.devRef .tc b ∉ op.writes) :
    Pipeline.afterTail₀ cfgs dats 0 (V0 m) tailOps c b = V m c b := by
  unfold Pipeline.afterTail₀
  rw [StableHlo.after_of_forall_not_mem _ _ (fun op hop => ?_), Pipeline.withArrays_of_ne _ c (V0 m c) _ b hb]
  obtain ⟨ops, hops, hop'⟩ := List.mem_flatten.mp hop
  exact hw ops hops op hop'

/-- The library's frame post after the tail, read at @main's two arguments: neither is an array of the region nor
    written by the tail, so each is at its region-entry contents, which are the launch contents. -/
theorem args_of_post (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 rfl (by intro w; fin_cases w <;> decide))).trans
      ((afterTail_spared m dats c main_arg0 (by intro w; fin_cases w <;> decide)
        (fun ops hops op hop => (tail_spares ops hops op hop).2.2.1)).trans (V_main_arg0 m c)),
   ((h c).2 main_arg1 (Pipeline.mem_restRefs_of main_arg1 rfl (by intro w; fin_cases w <;> decide))).trans
      ((afterTail_spared m dats c main_arg1 (by intro w; fin_cases w <;> decide)
        (fun ops hops op hop => (tail_spares ops hops op hop).2.2.2)).trans (V_main_arg1 m c))⟩

/-- So a run to that post is the frame claim's run. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => args_of_post m dats r h c) h

end Cert.KernelIdeal.Hand

end
-- ==== Proof.KIRun.lean ====
/-
  The kernel body run once, in each of its two cases.

  At the first grid point the body stores zeros into the accumulator's buffer and then, as at every point,
  loads the mask block and the accumulator, and stores accumulator + ratio back.  So the buffer's final contents
  are described by its list of stores ("pieces", last first): two whole-block stores at the first point, one
  at every later point.  Each run below is the body's triple on arbitrary whole staging buffers, the input's at
  given contents; at the first point the accumulator's buffer may hold anything (the body reads it only after
  zeroing it), at a later point it holds the running contents.  The pieces are found by running the body.
-/
import proofs.«169511_j78881369358863_1_alg».proof.Proof.KIKit

-- membership in a rectangle of the block's extents is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large: the definition's epilogue walks it past the default budget
set_option maxHeartbeats 1000000 in
/-- The body at the FIRST grid point: the pieces it leaves in the accumulator's buffer, with the proof that from
    the input's buffer at `x0` and the accumulator's at anything it runs to the continuation holding the input's as
    it was and the accumulator's with those pieces written. -/
noncomputable def runFirst (c : Dev nD) (i : grid0.Coords) (arg1 : Memref sig .tc .vmem S1x64x16384 .f32) (harg1 : arg1.IsWhole)
    (arg2 : Memref sig .tc .vmem S64x64 .f32) (harg2 : arg2.IsWhole) (hc0 : isFirst i)
    (x0 : Vec F S1x64x16384 .f32) :
    { L1 : List (View.Piece (Elt F) S64x64 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__gram_kernel i arg1 harg1 arg2 harg2) K } := by
  refine ⟨?_, fun E K => ?run⟩
  case run =>
    simp only [cc0__gram_kernel_eq_skeleton]; unfold cc0__gram_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- The body at a LATER grid point: the same, the accumulator's buffer entering at the running contents `acc`. -/
noncomputable def runLater (c : Dev nD) (i : grid0.Coords) (arg1 : Memref sig .tc .vmem S1x64x16384 .f32) (harg1 : arg1.IsWhole)
    (arg2 : Memref sig .tc .vmem S64x64 .f32) (harg2 : arg2.IsWhole) (hc0 : ¬isFirst i)
    (x0 : Vec F S1x64x16384 .f32) (acc : Vec F S64x64 .f32) :
    { L1 : List (View.Piece (Elt F) S64x64 .f32) //
      ∀ (E : Set ℕ) (K : PUnit → sProp 𝕄),
        iprop(owns (c : Thread nD τ) arg1 fullShare x0 ∗ owns (c : Thread nD τ) arg2 fullShare acc
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__gram_kernel i arg1 harg1 arg2 harg2) K } := by
  refine ⟨?_, fun E K => ?run⟩
  case run =>
    simp only [cc0__gram_kernel_eq_skeleton]; unfold cc0__gram_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

end Cert.KernelIdeal.Hand

end
-- ==== Proof.KIFrame.lean ====
/-
  The frame of the program: the proof data of its one pipeline, the body obligation at every grid point, the
  run of @main, and the frame claim.

  What the accumulator's staging buffer holds after the body at point n is defined by recursion on n: at
  point 0 what the first-point run leaves from the mask block of batch element 0, at point n + 1 what the
  later-point run leaves from the block of batch element n + 1 over what point n left.  The pipeline writes
  the accumulator back only after the last point, so between two points the buffer is untouched and the body
  at point n + 1 indeed finds what point n left.  The input window is fetched at every point and only read.
-/
import proofs.«169511_j78881369358863_1_alg».proof.Proof.KIRun

-- membership in a rectangle of the block's extents is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-point run's two stores each cover the whole block. -/
theorem coverFirst (c : Dev nD) (i : grid0.Coords) (arg1 : Memref sig .tc .vmem S1x64x16384 .f32) (harg1 : arg1.IsWhole)
    (arg2 : Memref sig .tc .vmem S64x64 .f32) (harg2 : arg2.IsWhole) (hc0 : isFirst i)
    (x0 : Vec F S1x64x16384 .f32) (y : S64x64.Idx) :
    ∃ pc ∈ (runFirst c i arg1 harg1 arg2 harg2 hc0 x0).1, y ∈ pc.1.set :=
  View.cover_of_tiledL (runFirst c i arg1 harg1 arg2 harg2 hc0 x0).1 S64x64.size (by sl_kernel_rfl) y

/-- What the first point leaves in the accumulator's buffer: its pieces read back. -/
def accFirst (c : Dev nD) (i : grid0.Coords) (arg1 : Memref sig .tc .vmem S1x64x16384 .f32) (harg1 : arg1.IsWhole)
    (arg2 : Memref sig .tc .vmem S64x64 .f32) (harg2 : arg2.IsWhole) (hc0 : isFirst i)
    (x0 : Vec F S1x64x16384 .f32) : Vec F S64x64 .f32 :=
  accView.read (Elt F) (accView.writes (Elt F) accView.junk (runFirst c i arg1 harg1 arg2 harg2 hc0 x0).1)

/-- A later point's one store covers the whole block. -/
theorem coverLater (c : Dev nD) (i : grid0.Coords) (arg1 : Memref sig .tc .vmem S1x64x16384 .f32) (harg1 : arg1.IsWhole)
    (arg2 : Memref sig .tc .vmem S64x64 .f32) (harg2 : arg2.IsWhole) (hc0 : ¬isFirst i)
    (x0 : Vec F S1x64x16384 .f32) (acc : Vec F S64x64 .f32) (y : S64x64.Idx) :
    ∃ pc ∈ (runLater c i arg1 harg1 arg2 harg2 hc0 x0 acc).1, y ∈ pc.1.set :=
  View.cover_of_tiledL (runLater c i arg1 harg1 arg2 harg2 hc0 x0 acc).1 S64x64.size (by sl_kernel_rfl) y

/-- What a later point leaves in the accumulator's buffer, from the running contents `acc`. -/
def accLater (c : Dev nD) (i : grid0.Coords) (arg1 : Memref sig .tc .vmem S1x64x16384 .f32) (harg1 : arg1.IsWhole)
    (arg2 : Memref sig .tc .vmem S64x64 .f32) (harg2 : arg2.IsWhole) (hc0 : ¬isFirst i)
    (x0 : Vec F S1x64x16384 .f32) (acc : Vec F S64x64 .f32) : Vec F S64x64 .f32 :=
  accView.read (Elt F) (accView.writes (Elt F) accView.junk (runLater c i arg1 harg1 arg2 harg2 hc0 x0 acc).1)

/-! ## The accumulator, point by point -/

/-- The accumulator's buffer after the body at position `n`. -/
def accAt (c : Dev nD) : (n : ℕ) → n < cfg0.N → Vec F S64x64 .f32
  | 0, hn => accFirst c (grid0.coords ⟨0, hn⟩) (ms0 ⟨0, hn⟩) (hs0 ⟨0, hn⟩) (ms1 ⟨0, hn⟩) (hs1 ⟨0, hn⟩) ((isFirst_iff ⟨0, hn⟩).mpr rfl) (iblk m c 0 ⟨0, hn⟩)
  | n + 1, hn =>
      accLater c (grid0.coords ⟨n + 1, hn⟩) (ms0 ⟨n + 1, hn⟩) (hs0 ⟨n + 1, hn⟩) (ms1 ⟨n + 1, hn⟩) (hs1 ⟨n + 1, hn⟩)
        (fun h => Nat.succ_ne_zero n ((isFirst_iff ⟨n + 1, hn⟩).mp h)) (iblk m c 0 ⟨n + 1, hn⟩) (accAt c n (Nat.lt_of_succ_lt hn))

/-- `accAt` at the first point. -/
theorem accAt_first (c : Dev nD) (t : Fin cfg0.N) (h0 : t.val = 0) :
    accAt m c t.val t.isLt = accFirst c (grid0.coords t) (ms0 t) (hs0 t) (ms1 t) (hs1 t) ((isFirst_iff t).mpr h0) (iblk m c 0 t) := by
  obtain ⟨n, hn⟩ := t
  cases n with
  | zero => rfl
  | succ n => exact absurd h0 (Nat.succ_ne_zero n)

/-- `accAt` at a later point: over what the point before left. -/
theorem accAt_later (c : Dev nD) (t : Fin cfg0.N) (h0 : t.val ≠ 0) :
    accAt m c t.val t.isLt = accLater c (grid0.coords t) (ms0 t) (hs0 t) (ms1 t) (hs1 t) (fun h => h0 ((isFirst_iff t).mp h)) (iblk m c 0 t)
      (accAt m c (t.val - 1) (Nat.lt_of_le_of_lt (Nat.sub_le _ _) t.isLt)) := by
  obtain ⟨n, hn⟩ := t
  cases n with
  | zero => exact absurd rfl h0
  | succ n => rfl

/-! ## The pipeline's proof data -/

/-- The proof data on core `c`: the arrays as the region finds them; after the body at point `t` the input's buffer
    at its block and the accumulator's at `accAt`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (accAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = (accAt m c t.val t.isLt) := by dsimp only [dats]

/-- The input's current staging buffer holds its block at every point. -/
theorem before0 (c : Dev nD) (t : Fin cfg0.N) (d) : (dats m 0 c).before 0 t d = iblk m c 0 t :=
  before0_0_of m (dats m 0 c) (A_eq m c 0) (after0 m c) t d

/-- At a later point the accumulator's buffer holds what the body left at the point before: it was not written back
    between (that happens after the last point only), the window is live and uncut. -/
theorem before1_later (c : Dev nD) (t : Fin cfg0.N) (h0 : t.val ≠ 0) (d) :
    (dats m 0 c).before 1 t d = (accAt m c (t.val - 1) (Nat.lt_of_le_of_lt (Nat.sub_le _ _) t.isLt)) := by
  have hN : t.val < 32 := lt_of_lt_of_eq t.isLt (show cfg0.N = 32 from N_0)
  rw [Dat.before_out_kept _ 1 rfl t h0 (Bool.eq_false_iff.mpr fun h => by have := (flush0_1 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t))

set_option maxHeartbeats 800000 in
/-- The body at any point: the input's buffer holds its block; at the first point the accumulator's buffer may hold
    anything, at a later one it holds what the point before left; so the matching run applies, and what it
    leaves is `accAt` at this point because its stores cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).Φ t.succ = (dats m 0 c).Φ t.castSucc from rfl,
    show (dats m 0 c).owesAt () t.succ = (dats m 0 c).owesAt () t.castSucc from rfl,
    after0, after1]
  by_cases h0 : t.val = 0
  · rw [accAt_first m c t h0]
    unfold accFirst
    iintro ⟨HΦ, Ho, ⟨%d0, H0⟩, ⟨%d1, H1⟩⟩
    iapply ((runFirst c (grid0.coords t) _ _ _ _ ((isFirst_iff t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverFirst c _ _ _ _ _ _ _)
  · rw [accAt_later m c t h0]
    simp only [before1_later m c t h0]
    unfold accLater
    iintro ⟨HΦ, Ho, ⟨%d0, H0⟩, ⟨%d1, H1⟩⟩
    iapply ((runLater c (grid0.coords t) _ _ _ _ (fun h => h0 ((isFirst_iff t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverLater c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions in a metavariable's type
set_option backward.isDefEq.respectTransparency.types false in
/-- From any memory with zero counters every weakly fair execution of @main terminates, and every final state has
    the region's two arrays at what the library computes from the proof data and every other unscoped buffer as
    the tail leaves it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: @main runs to the end, faults nowhere, and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.Spec.lean ====
/-
  What both programs compute before the shared tail, as one function of the masks.

  A mask entry x is first mapped to  act x = max 0 ((x + 1) · ½).  For one batch element, with
  a : rows × pixels the activated masks, the overlap of rows p and q is the inner product
  ∑ₖ a p k · a q k, a row's mass is ∑ₖ a p k, and the overlap RATIO is the overlap divided by the smaller of
  the two masses.  The quantity the tail consumes is the sum of the ratios over the 32 batch elements.
  Everything is over the extended reals; the quotient is the library's `Ideal.div` (which has a value at a
  zero divisor too, so no side condition is needed to state it).
-/
import Idealize.ShloMosaic.PureOps.Ideal
import Idealize.ShloMosaic.PureOps.Ideal.Laws

noncomputable section

namespace Cert.Spec

open Idealize.ShloMosaic

/-- The activation of one mask entry: `max 0 ((x + 1) · ½)`, the constants as the binary words they are printed as. -/
def act (x : EReal) : EReal :=
  max (Ideal.ofBits .f32 0x00000000#32) ((x + Ideal.ofBits .f32 0x3F800000#32) * Ideal.ofBits .f32 0x3F000000#32)

/-- The overlap ratio of rows `p` and `q` of one batch element `a` (64 rows of 16384 pixels). -/
def ratio (a : Fin 64 → Fin 16384 → EReal) (p q : Fin 64) : EReal :=
  Ideal.div (∑ k, a p k * a q k) (min (∑ k, a p k) (∑ k, a q k))

/-- The ratios of the activated masks `Y` (32 batch elements) summed over the batch. -/
def ratioSum (Y : Fin 32 → Fin 64 → Fin 16384 → EReal) (p q : Fin 64) : EReal :=
  ∑ b, ratio (fun r k => act (Y b r k)) p q

/-- The word 0x3F000000 denotes one half. -/
theorem ofBits_half : Ideal.ofBits .f32 0x3F000000#32 = ((1 / 2 : ℝ) : EReal) := by
  simp [Ideal.ofBits, Ideal.ieee, -EReal.coe_mul]; norm_num

/-- The word 0x40000000 denotes two. -/
theorem ofBits_two : Ideal.ofBits .f32 0x40000000#32 = ((2 : ℝ) : EReal) := by
  simp [Ideal.ofBits, Ideal.ieee, -EReal.coe_mul]; norm_num

/-- Dividing by two is multiplying by one half, on every extended real: the activation written with a quotient
    by the word for 2 is the activation written with a product by the word for ½. -/
theorem act_of_div (x : EReal) :
    max (Ideal.ofBits .f32 0x00000000#32) (Ideal.div (x + Ideal.ofBits .f32 0x3F800000#32) (Ideal.ofBits .f32 0x40000000#32))
      = act x := by
  unfold act
  rw [ofBits_two, Ideal.div_coe (by norm_num : (2 : ℝ) ≠ 0), ofBits_half]

end Cert.Spec

end
-- ==== Proof.KIPayload.lean ====
/-
  The kernel body's arithmetic read at one entry, over the extended reals.

  The first grid point stores the zero block.  Every grid point stores, at row p and column q, the accumulator's
  entry plus the overlap ratio of rows p and q of the activated masks: with a r k = act (x 0 r k) the activated
  entry of the loaded block x, the stored entry is  acc p q + (∑ₖ a p k · a q k) / min (∑ₖ a p k) (∑ₖ a q k).
  The layout steps between (dropping the block's unit axis, the column and row copies of the masses, the transposed
  right factor of the product) only move entries; the change of float format is the identity on the extended reals;
  the product into the zero array is the bare sum over the pixel axis.
-/
import proofs.«169511_j78881369358863_1_alg».proof.Proof.Gen.KernelIdeal.Skeleton
import proofs.«169511_j78881369358863_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The zero block -/

/-- The block the first grid point stores is zero at every entry. -/
theorem pay1_apply (j : S64x64.Idx) : Gen.k0_pay1 (F := Ideal) j = 0 := by
  show Ideal.ofBits .f32 0x00000000#32 = 0
  exact Ideal.ofBits_zero_f32

/-! ## Layout steps the masses pass through, read at an entry -/

section Layout
variable {α : Type}

/-- A vector of length a viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] copied along b columns reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The activation -/

/-- The activated masks of a block of rows × pixels, as the body computes them: add one, halve, clamp below at zero. -/
def actRows (x : FVec Ideal S64x16384 .f32) : FVec Ideal S64x16384 .f32 :=
  maximumf (broadcast S64x16384 (Scalar.ofBits .f32 0x00000000#32))
    (mulf (addf x (broadcast S64x16384 (Scalar.ofBits .f32 0x3F800000#32)))
      (broadcast S64x16384 (Scalar.ofBits .f32 0x3F000000#32)))

/-- Entry by entry it is the specification's activation. -/
theorem actRows_apply (x : FVec Ideal S64x16384 .f32) (i : S64x16384.Idx) : actRows x i = Cert.Spec.act (x i) := rfl

/-! ## A row's mass -/

/-- The lane sum of a block of rows × pixels at row r is the sum of that row's entries over the pixels. -/
theorem mass_apply (A : FVec Ideal S64x16384 .f32) (hφ : FKind.Formats .f32)
    (hacc : (0x00000000#32 : BitVec 32) = 0x00000000#32) (r : Fin 64) :
    multiReduction (F := Ideal) .add [1] S64 A 0x00000000#32 reduces_S64x16384_S64 hφ hacc (ix1 r)
      = ∑ k : Fin 16384, A (ix2 r k) := by
  refine (Ideal.multiReduction_add_single A 0x00000000#32 reduces_S64x16384_S64 hφ hacc (ix1 r)).trans ?_
  refine Finset.sum_congr rfl fun k _ => congrArg A ?_
  funext c
  apply Fin.ext
  match c with
  | ⟨0, _⟩ => rfl
  | ⟨1, _⟩ => rfl

/-! ## The product of the activated block with its transpose

The product's dimension numbers contract the pixel axis: axis 1 of the left factor, axis 0 of the right one. The four
coordinates of the two operand indices, at an output entry and a contraction position: -/

theorem lhs_gram_0 (i : S64x64.Idx) (q : dot_S64x16384_S16384x64_S64x64_1_0_0_1_n_n.contr.Idx) :
    (dot_S64x16384_S16384x64_S64x64_1_0_0_1_n_n.lhsIdx i q 0).val = (i 0).val := by
  unfold DotDims.lhsIdx
  rw [dif_neg (show ¬(0 : Fin S64x16384.rank) ∈ dot_S64x16384_S16384x64_S64x64_1_0_0_1_n_n.lhsBatch by decide),
    dif_pos (show (0 : Fin S64x16384.rank) ∈ dot_S64x16384_S16384x64_S64x64_1_0_0_1_n_n.lhsNonContracting by decide)]
  rfl

theorem lhs_gram_1 (i : S64x64.Idx) (q : dot_S64x16384_S16384x64_S64x64_1_0_0_1_n_n.contr.Idx) :
    (dot_S64x16384_S16384x64_S64x64_1_0_0_1_n_n.lhsIdx i q 1).val = (q ⟨0, by decide⟩).val :=
  dot_S64x16384_S16384x64_S64x64_1_0_0_1_n_n.lhsIdx_val_of_single rfl i q

theorem rhs_gram_0 (i : S64x64.Idx) (q : dot_S64x16384_S16384x64_S64x64_1_0_0_1_n_n.contr.Idx) :
    (dot_S64x16384_S16384x64_S64x64_1_0_0_1_n_n.rhsIdx i q 0).val = (q ⟨0, by decide⟩).val :=
  dot_S64x16384_S16384x64_S64x64_1_0_0_1_n_n.rhsIdx_val_of_single rfl i q

theorem rhs_gram_1 (i : S64x64.Idx) (q : dot_S64x16384_S16384x64_S64x64_1_0_0_1_n_n.contr.Idx) :
    (dot_S64x16384_S16384x64_S64x64_1_0_0_1_n_n.rhsIdx i q 1).val = (i 1).val := by
  unfold DotDims.rhsIdx
  rw [dif_neg (show ¬(1 : Fin S16384x64.rank) ∈ dot_S64x16384_S16384x64_S64x64_1_0_0_1_n_n.rhsBatch by decide),
    dif_pos (show (1 : Fin S16384x64.rank) ∈ dot_S64x16384_S16384x64_S64x64_1_0_0_1_n_n.rhsNonContracting by decide)]
  rfl

/-- The product of a rows × pixels factor with a pixels × rows factor into the zero array reads, at (p, q), the sum over
    the pixels of the left factor's row p times the right factor's column q. -/
theorem gram_apply (L : FVec Ideal S64x16384 .bf16) (R : FVec Ideal S16384x64 .bf16) (p q : Fin 64) :
    matmul dot_S64x16384_S16384x64_S64x64_1_0_0_1_n_n none L R (constant (F := Ideal) S64x64 .f32 0x00000000#32) (ix2 p q)
      = ∑ k : Fin 16384, L (ix2 p k) * R (ix2 k q) := by
  simp only [matmul]
  rw [Ideal.matmul_constant_zero_apply,
    ← Equiv.sum_comp (contrEquiv1 dot_S64x16384_S16384x64_S64x64_1_0_0_1_n_n 16384 rfl rfl).symm]
  refine Finset.sum_congr rfl fun k _ => ?_
  have hk := contrEquiv1_symm_val dot_S64x16384_S16384x64_S64x64_1_0_0_1_n_n 16384 rfl rfl k
  have el : dot_S64x16384_S16384x64_S64x64_1_0_0_1_n_n.lhsIdx (ix2 p q)
      ((contrEquiv1 dot_S64x16384_S16384x64_S64x64_1_0_0_1_n_n 16384 rfl rfl).symm k) = ix2 p k :=
    funext fun a => Fin.ext (by
      match a with
      | ⟨0, _⟩ => exact lhs_gram_0 _ _
      | ⟨1, _⟩ => exact (lhs_gram_1 _ _).trans hk)
  have er : dot_S64x16384_S16384x64_S64x64_1_0_0_1_n_n.rhsIdx (ix2 p q)
      ((contrEquiv1 dot_S64x16384_S16384x64_S64x64_1_0_0_1_n_n 16384 rfl rfl).symm k) = ix2 k q :=
    funext fun a => Fin.ext (by
      match a with
      | ⟨0, _⟩ => exact (rhs_gram_0 _ _).trans hk
      | ⟨1, _⟩ => exact rhs_gram_1 _ _)
  rw [el, er]

/-- With both factors the activated block A (the change of float format is the identity on the extended reals; the right
    factor is A transposed) the entry at (p, q) is the inner product of rows p and q of A. -/
theorem gram_self_apply (A : FVec Ideal S64x16384 .f32) (p q : Fin 64) :
    matmul dot_S64x16384_S16384x64_S64x64_1_0_0_1_n_n none (truncf .bf16 A bitsLt_bf16_f32)
        (transpose S16384x64 [1, 0] (truncf .bf16 A bitsLt_bf16_f32) transposes_S64x16384_p1_0_S16384x64)
        (constant (F := Ideal) S64x64 .f32 0x00000000#32) (ix2 p q)
      = ∑ k : Fin 16384, A (ix2 p k) * A (ix2 q k) := by
  rw [gram_apply]
  refine Finset.sum_congr rfl fun k _ => ?_
  rw [transpose_ix2_apply, truncf_apply, truncf_apply]

/-! ## The overlap ratios of an activated block -/

/-- What the body makes of the activated block A: the product of A with its transpose, entry by entry divided by the
    smaller of the row's and the column's mass (the masses copied along the columns and along the rows). -/
def ratioBlock (A : FVec Ideal S64x16384 .f32) : FVec Ideal S64x64 .f32 :=
  divf
    (matmul dot_S64x16384_S16384x64_S64x64_1_0_0_1_n_n none (truncf .bf16 A bitsLt_bf16_f32)
      (transpose S16384x64 [1, 0] (truncf .bf16 A bitsLt_bf16_f32) transposes_S64x16384_p1_0_S16384x64)
      (constant S64x64 .f32 0x00000000#32))
    (minimumf
      (broadcastTo S64x64
        (shapeCast S64x1 (multiReduction .add [1] S64 A 0x00000000#32 reduces_S64x16384_S64 (.inl rfl) rfl)
          shapeCasts_S64_S64x1)
        broadcasts_S64x1_S64x64)
      (broadcastTo S64x64
        (transpose S1x64 [1, 0]
          (shapeCast S64x1 (multiReduction .add [1] S64 A 0x00000000#32 reduces_S64x16384_S64 (.inl rfl) rfl)
            shapeCasts_S64_S64x1)
          transposes_S64x1_p1_0_S1x64)
        broadcasts_S1x64_S64x64))

/-- At (p, q) it is the specification's overlap ratio of rows p and q of A. -/
theorem ratioBlock_apply (A : FVec Ideal S64x16384 .f32) (p q : Fin 64) :
    ratioBlock A (ix2 p q) = Cert.Spec.ratio (fun r k => A (ix2 r k)) p q := by
  unfold ratioBlock Cert.Spec.ratio
  rw [divf_apply, minimumf_apply, gram_self_apply, broadcastTo_a1_ab_apply, broadcastTo_1b_ab_apply, transpose_ix2_apply,
    shapeCast_a_a1_apply, shapeCast_a_a1_apply, mass_apply, mass_apply]

/-! ## The body's one store -/

/-- The stored block is the accumulator plus the ratios of the activated block. -/
theorem pay2_eq (v3 : Vec Ideal S1x64x16384 .f32) (v21 : Vec Ideal S64x64 .f32) :
    Gen.k0_pay2 (F := Ideal) v3 v21
      = addf (shapeCast S64x64 v21 shapeCasts_S64x64_S64x64)
          (ratioBlock (actRows (shapeCast S64x16384 v3 shapeCasts_S1x64x16384_S64x16384))) := rfl

/-- At (p, q): the accumulator's entry plus the overlap ratio of rows p and q of the activated block. -/
theorem pay2_apply (v3 : Vec Ideal S1x64x16384 .f32) (v21 : Vec Ideal S64x64 .f32) (p q : Fin 64) :
    Gen.k0_pay2 (F := Ideal) v3 v21 (ix2 p q)
      = v21 (ix2 p q) + Cert.Spec.ratio (fun r k => Cert.Spec.act (v3 (ix3 0 r k))) p q := by
  rw [pay2_eq, addf_apply, shapeCast_self, ratioBlock_apply]
  refine congrArg (fun a => v21 (ix2 p q) + Cert.Spec.ratio a p q) (funext fun r => funext fun k => ?_)
  rw [actRows_apply, shapeCast_1ab_ab_apply]

end Cert.KernelIdeal.Hand

end
-- ==== Proof.Tail.lean ====
/-
  The part of the computation the two programs share: after the 64×64 sum over the batch, both divide by 32,
  derive a node type for each of the 64 rows from the integer input, build from the types a target β and a weight w
  on the strict upper triangle, and return (∑ |β − X/32| · w) / ∑ w.  The tail is one function of the batch sum and of
  the integer input; it is stated once per program over that program's own names, the kernel's host operations after
  the region are shown to compute it, the reference's last stages are shown to be it, and the two are the same function.
-/
import proofs.«169511_j78881369358863_1_alg».proof.Proof.Gen.KernelIdeal.Launch
import proofs.«169511_j78881369358863_1_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The shared tail: from the 64×64 batch sum `X` and the integer input `n`, the scalar the program returns.

    * `mean` is `X` divided entrywise by the word for 32 (the number of batch elements).
    * `ty` is the node type of each of the 64 rows of the masks: 0 where `n < 7`, else 1 where `n < 9`, else 2.
      `tyP` is `ty` as a 64×1 array (it varies with the first index `p` of the square), `tyQ` is `ty` as a 1×64
      array (it varies with the second index `q`).
    * `pIs k` and `qIs k` are the 64×64 masks "`ty p = k`" and "`ty q = k`" (an equality test, then a test
      against `false`, then the broadcast to the square).
    * `β` is 1 where exactly one of `p`, `q` has type 2, else 0.
    * `upper` is the strict upper triangle: `false` where `p ≥ q`, else `true`.
    * `w`, the weight, is 1 on the strict upper triangle except where one of `p`, `q` has type 1 and neither has
      type 2, and 0 elsewhere.
    The result is `(∑ |β − mean| · w) / ∑ w`, both sums over the whole square, each started from the word for 0. -/
def tail (X : (⟨S64x64, .f32⟩ : BufTy).Contents (Elt F)) (n : (⟨S64, .i32⟩ : BufTy).Contents (Elt F)) :
    (⟨S_, .f32⟩ : BufTy).Contents (Elt F) :=
  let mean : (⟨S64x64, .f32⟩ : BufTy).Contents (Elt F) :=
    Host.divf (F := F) X (broadcastInDim S64x64 ![] bcast_S_S64x64 (constant (F := F) S_ .f32 0x42000000#32))
  let ty : (⟨S64, .i32⟩ : BufTy).Contents (Elt F) :=
    select (cmpi .slt n (broadcastInDim S64 ![] bcast_S_S64 (constantI S_ 32 7#32)))
      (broadcastInDim S64 ![] bcast_S_S64 (constantI S_ 32 0#32))
      (select (cmpi .slt n (broadcastInDim S64 ![] bcast_S_S64 (constantI S_ 32 9#32)))
        (broadcastInDim S64 ![] bcast_S_S64 (constantI S_ 32 1#32))
        (broadcastInDim S64 ![] bcast_S_S64 (constantI S_ 32 2#32)))
  let tyP : (⟨S64x1, .i32⟩ : BufTy).Contents (Elt F) := broadcastInDim S64x1 ![0] bcast_S64_S64x1_0 ty
  let tyQ : (⟨S1x64, .i32⟩ : BufTy).Contents (Elt F) := broadcastInDim S1x64 ![1] bcast_S64_S1x64_1 ty
  let pIs (k : BitVec 32) : (⟨S64x64, .i1⟩ : BufTy).Contents (Elt F) :=
    broadcastInDim S64x64 ![0, 1] bcast_S64x1_S64x64_0_1
      (id (cmpi .ne (cmpi .eq tyP (broadcastInDim S64x1 ![] bcast_S_S64x1 (constantI S_ 32 k)))
        (broadcastInDim S64x1 ![] bcast_S_S64x1 (constantI S_ 1 0#1))))
  let qIs (k : BitVec 32) : (⟨S64x64, .i1⟩ : BufTy).Contents (Elt F) :=
    broadcastInDim S64x64 ![0, 1] bcast_S1x64_S64x64_0_1
      (id (cmpi .ne (cmpi .eq tyQ (broadcastInDim S1x64 ![] bcast_S_S1x64 (constantI S_ 32 k)))
        (broadcastInDim S1x64 ![] bcast_S_S1x64 (constantI S_ 1 0#1))))
  let β : (⟨S64x64, .f32⟩ : BufTy).Contents (Elt F) := uitofp .f32 (xori (pIs 2#32) (qIs 2#32))
  let upper : (⟨S64x64, .i1⟩ : BufTy).Contents (Elt F) :=
    select (cmpi .sge (addi (iotaInDim S64x64 32 0) (broadcastInDim S64x64 ![] bcast_S_S64x64 (constantI S_ 32 0#32)))
        (iotaInDim S64x64 32 1))
      (broadcastInDim S64x64 ![] bcast_S_S64x64 (constantI S_ 1 0#1))
      (broadcastInDim S64x64 ![] bcast_S_S64x64 (constantI S_ 1 1#1))
  let w : (⟨S64x64, .f32⟩ : BufTy).Contents (Elt F) :=
    uitofp .f32 (andi (noti (andi (ori (pIs 1#32) (qIs 1#32)) (noti (ori (pIs 2#32) (qIs 2#32))))) upper)
  Host.divf (F := F)
    (Host.reduceAdd (F := F) (mulf (Host.absf (F := F) (subf β mean)) w) (constant (F := F) S_ .f32 0x00000000#32)
      reducesTo_S64x64_S_d0_1 h_S_)
    (Host.reduceAdd (F := F) w (constant (F := F) S_ .f32 0x00000000#32) reducesTo_S64x64_S_d0_1 h_S_)

/-- The kernel program's host operations after the region, run from any contents `W`, leave the tail of what `W`
    holds at the region's output and at the integer argument in the result buffer. -/
theorem tail_after (W : Valuation τ sig (Elt F)) :
    StableHlo.after (List.flatten [Gen.hostOps1, Gen.hostOps1_1, Gen.hostOps1_2, Gen.hostOps1_3, Gen.hostOps1_4, Gen.hostOps1_5, Gen.hostOps1_6]) W (Proc.devRef .tc main_v64)
      = tail (W (Proc.devRef .tc main_v1)) (W (Proc.devRef .tc main_arg1)) := by
  simp only [Gen.hostOps1, Gen.hostOps1_1, Gen.hostOps1_2, Gen.hostOps1_3, Gen.hostOps1_4, Gen.hostOps1_5, Gen.hostOps1_6,
    List.flatten_cons, List.flatten_nil, List.append_nil, List.cons_append, List.nil_append]
  after_results_simp
  rfl

end Cert.KernelIdeal.Hand

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The shared tail: from the 64×64 batch sum `X` and the integer input `n`, the scalar the program returns.

    * `mean` is `X` divided entrywise by the word for 32 (the number of batch elements).
    * `ty` is the node type of each of the 64 rows of the masks: 0 where `n < 7`, else 1 where `n < 9`, else 2.
      `tyP` is `ty` as a 64×1 array (it varies with the first index `p` of the square), `tyQ` is `ty` as a 1×64
      array (it varies with the second index `q`).
    * `pIs k` and `qIs k` are the 64×64 masks "`ty p = k`" and "`ty q = k`" (an equality test, then a test
      against `false`, then the broadcast to the square).
    * `β` is 1 where exactly one of `p`, `q` has type 2, else 0.
    * `upper` is the strict upper triangle: `false` where `p ≥ q`, else `true`.
    * `w`, the weight, is 1 on the strict upper triangle except where one of `p`, `q` has type 1 and neither has
      type 2, and 0 elsewhere.
    The result is `(∑ |β − mean| · w) / ∑ w`, both sums over the whole square, each started from the word for 0. -/
def tail (X : (⟨S64x64, .f32⟩ : BufTy).Contents (Elt F)) (n : (⟨S64, .i32⟩ : BufTy).Contents (Elt F)) :
    (⟨S_, .f32⟩ : BufTy).Contents (Elt F) :=
  let mean : (⟨S64x64, .f32⟩ : BufTy).Contents (Elt F) :=
    Host.divf (F := F) X (broadcastInDim S64x64 ![] bcast_S_S64x64 (constant (F := F) S_ .f32 0x42000000#32))
  let ty : (⟨S64, .i32⟩ : BufTy).Contents (Elt F) :=
    select (cmpi .slt n (broadcastInDim S64 ![] bcast_S_S64 (constantI S_ 32 7#32)))
      (broadcastInDim S64 ![] bcast_S_S64 (constantI S_ 32 0#32))
      (select (cmpi .slt n (broadcastInDim S64 ![] bcast_S_S64 (constantI S_ 32 9#32)))
        (broadcastInDim S64 ![] bcast_S_S64 (constantI S_ 32 1#32))
        (broadcastInDim S64 ![] bcast_S_S64 (constantI S_ 32 2#32)))
  let tyP : (⟨S64x1, .i32⟩ : BufTy).Contents (Elt F) := broadcastInDim S64x1 ![0] bcast_S64_S64x1_0 ty
  let tyQ : (⟨S1x64, .i32⟩ : BufTy).Contents (Elt F) := broadcastInDim S1x64 ![1] bcast_S64_S1x64_1 ty
  let pIs (k : BitVec 32) : (⟨S64x64, .i1⟩ : BufTy).Contents (Elt F) :=
    broadcastInDim S64x64 ![0, 1] bcast_S64x1_S64x64_0_1
      (id (cmpi .ne (cmpi .eq tyP (broadcastInDim S64x1 ![] bcast_S_S64x1 (constantI S_ 32 k)))
        (broadcastInDim S64x1 ![] bcast_S_S64x1 (constantI S_ 1 0#1))))
  let qIs (k : BitVec 32) : (⟨S64x64, .i1⟩ : BufTy).Contents (Elt F) :=
    broadcastInDim S64x64 ![0, 1] bcast_S1x64_S64x64_0_1
      (id (cmpi .ne (cmpi .eq tyQ (broadcastInDim S1x64 ![] bcast_S_S1x64 (constantI S_ 32 k)))
        (broadcastInDim S1x64 ![] bcast_S_S1x64 (constantI S_ 1 0#1))))
  let β : (⟨S64x64, .f32⟩ : BufTy).Contents (Elt F) := uitofp .f32 (xori (pIs 2#32) (qIs 2#32))
  let upper : (⟨S64x64, .i1⟩ : BufTy).Contents (Elt F) :=
    select (cmpi .sge (addi (iotaInDim S64x64 32 0) (broadcastInDim S64x64 ![] bcast_S_S64x64 (constantI S_ 32 0#32)))
        (iotaInDim S64x64 32 1))
      (broadcastInDim S64x64 ![] bcast_S_S64x64 (constantI S_ 1 0#1))
      (broadcastInDim S64x64 ![] bcast_S_S64x64 (constantI S_ 1 1#1))
  let w : (⟨S64x64, .f32⟩ : BufTy).Contents (Elt F) :=
    uitofp .f32 (andi (noti (andi (ori (pIs 1#32) (qIs 1#32)) (noti (ori (pIs 2#32) (qIs 2#32))))) upper)
  Host.divf (F := F)
    (Host.reduceAdd (F := F) (mulf (Host.absf (F := F) (subf β mean)) w) (constant (F := F) S_ .f32 0x00000000#32)
      reducesTo_S64x64_S_d0_1 h_S_)
    (Host.reduceAdd (F := F) w (constant (F := F) S_ .f32 0x00000000#32) reducesTo_S64x64_S_d0_1 h_S_)

/-- The reference's result is the tail of its batch sum (its stage 14) and of the integer argument: its later stages,
    opened down to the division by 32, are the tail's operations one for one. -/
theorem res_eq_tail (m : (ℓ : Loc nD τ sig) → Buf (Elt F) ℓ) (c : Dev nD) :
    Cert.ReferenceIdeal.Value.res_main_v77 m c
      = tail (Cert.ReferenceIdeal.Read.val_main_v14 (m ((c.tc : Thread nD τ).loc main_arg0))) (m ((c.tc : Thread nD τ).loc main_arg1)) := by
  rw [Read.val_main_v77_eq]
  unfold Read.val_main_v77 Read.val_main_v75 Read.val_main_v74 Read.val_main_v73 Read.val_main_v72 Read.val_main_v16
  generalize Read.val_main_v14 (F := F) _ = X
  rfl

end Cert.ReferenceIdeal.Hand

namespace Cert.Hand

open Idealize.ShloMosaic

variable {F : FTy → Type} [FloatOps F]

/-- The two programs' tails are one function: their shapes are the same literals and their side conditions are proofs. -/
theorem tail_eq (X : (⟨Cert.KernelIdeal.S64x64, .f32⟩ : BufTy).Contents (Elt F)) (n : (⟨Cert.KernelIdeal.S64, .i32⟩ : BufTy).Contents (Elt F)) :
    Cert.KernelIdeal.Hand.tail X n = Cert.ReferenceIdeal.Hand.tail X n := rfl

end Cert.Hand

end
-- ==== Proof.KIValue.lean ====
/-
  What the idealized kernel program computes.

  Each run of the body leaves, in the accumulator's buffer, its last store's value: at the first grid point the
  body's sum applied to the zero block it has just stored, at a later point the same sum applied to what the
  point before left.  Read at an entry (p, q) at the ideal instance that sum adds the overlap ratio of rows p, q of
  the point's batch element.  So after point n the entry holds 0 + ratio₀ + … + ratioₙ (induction on n), after the
  last point the sum over all 32 batch elements, which the one write-back (after the last point; its block is the
  whole array) copies into the region's output array.  The host operations after the region then apply the shared
  tail to that array and to the integer argument.
-/
import proofs.«169511_j78881369358863_1_alg».proof.Proof.KIFrame
import proofs.«169511_j78881369358863_1_alg».proof.Proof.KIPayload
import proofs.«169511_j78881369358863_1_alg».proof.Proof.Tail
import Idealize.ShloMosaic.Lib.Pipeline.Value
import Idealize.ShloMosaic.Lib.ValueIdx
import Idealize.ShloMosaic.Lib.Tactic

-- membership in a rectangle of the block's extents is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

/-! ## What each case's stores leave, at any instance -/

section Pieces

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A later point leaves the body's sum of the mask block `x` and the running contents `acc`. -/
theorem accLater_eq (c : Dev nD) (i : grid0.Coords) (a1 : Memref sig .tc .vmem S1x64x16384 .f32) (h1 : a1.IsWhole)
    (a2 : Memref sig .tc .vmem S64x64 .f32) (h2 : a2.IsWhole) (hc : ¬isFirst i) (x : Vec F S1x64x16384 .f32) (acc : Vec F S64x64 .f32) :
    accLater c i a1 h1 a2 h2 hc x acc = k0_pay2 x acc := by
  unfold accLater
  rw [View.read_writes_eq_canon _ _ _ (coverLater c i a1 h1 a2 h2 hc x acc)]
  unfold runLater
  dsimp only
  sl_unfold_words
  rw [View.canon_unit_zero hz2]
  simp only [View.readAt_eq_ld, h1.read_unread, h2.read_unread, View.ld_unit_zero (S := S1x64x16384) hz3, View.ld_unit_zero (S := S64x64) hz2]

/-- The first point leaves the body's sum of the mask block `x` and the zero block it stored just before. -/
theorem accFirst_eq (c : Dev nD) (i : grid0.Coords) (a1 : Memref sig .tc .vmem S1x64x16384 .f32) (h1 : a1.IsWhole)
    (a2 : Memref sig .tc .vmem S64x64 .f32) (h2 : a2.IsWhole) (hc : isFirst i) (x : Vec F S1x64x16384 .f32) :
    accFirst c i a1 h1 a2 h2 hc x = k0_pay2 x (k0_pay1 (F := F)) := by
  unfold accFirst
  rw [View.read_writes_eq_canon _ _ _ (coverFirst c i a1 h1 a2 h2 hc x)]
  unfold runFirst
  dsimp only
  sl_unfold_words
  rw [View.canon_cons_unit_zero (S := S64x64) hz2, View.readCov_unit_zero (S := S64x64) _ hz2]
  simp only [View.readAt_eq_ld, h1.read_unread, View.ld_unit_zero (S := S1x64x16384) hz3, View.ld_unit_zero (S := S64x64) hz2]

/-! ## The written-back array -/

/-- The last grid point. -/
abbrev tLast : Fin cfg0.N := ⟨31, by rw [show cfg0.N = 32 from N_0]; decide⟩

/-- The one write-back, after the last point, writes what the last point left: the block is the whole array. -/
theorem flushed_eq (c : Dev nD) (t : Fin cfg0.N) (hf : (cfg0.win 1).flush t = true) :
    (dats m 0 c).flushed 1 t = ((cfg0.win 1).blk t).view.read (Elt F) (accAt m c 31 tLast.isLt : Buf (Elt F) ((c : Thread nD τ).loc main_v1)) := by
  have hN : cfg0.N = 32 := N_0
  have h31 : t.val = 31 := by have := (flush0_1 t).mp hf; have := t.isLt; omega
  obtain rfl : t = tLast := Fin.ext h31
  show (cfg0.win 1).cut (grid0.coords tLast) ((dats m 0 c).after 1 tLast) = _
  rw [after1]
  have hz' : (fun a => win0_1.index tLast a * main_v1.ty.shape.size a) = fun _ => 0 := funext fun a => by fin_cases a <;> decide
  exact (Memref.read_access_unit_zero (Elt F) main_v1 hz' (fun a => by rw [congrFun hz' a]; simp) _).symm

/-- So the region's output array ends holding what the last point left. -/
theorem final_acc (c : Dev nD) : (dats m 0 c).arrAt 1 cfg0.N = accAt m c 31 tLast.isLt :=
  (dats m 0 c).arrAt_eq_of_cover 1 _ (flushed_eq m c) fun i =>
    ⟨tLast, (flush0_1 tLast).mpr rfl, by
      show i ∈ ((View.whole main_v1).slice (win0_1.rect tLast)).set
      rw [View.set_slice_whole, Rect.mem_set_unit]
      intro a
      have h0 : (i 0 : Nat) < 64 := (i 0).isLt
      have h1 : (i 1 : Nat) < 64 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 64 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 64 from by decide +kernel]; omega⟩

/-! ## The input blocks are the batch elements of the reshaped masks -/

/-- The input window's block index at point `t` is `(t, 0, 0)`. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block at point `t`, at row `r` and pixel `k`, is the reshaped masks' entry `(t, r, k)`. -/
theorem iblk_apply (c : Dev nD) (t : Fin cfg0.N) (r : Fin 64) (k : Fin 16384) :
    (iblk m c 0 t : Vec F S1x64x16384 .f32) (ix3 (0 : Fin 1) r k)
      = (V m c main_v0 : Vec F S32x64x16384 .f32) (ix3 (⟨t.val, lt_of_lt_of_eq t.isLt N_0⟩ : Fin 32) r k) := by
  obtain ⟨e0, e1, e2⟩ := index0 t
  unfold iblk
  rw [View.read_apply]
  show V m c main_v0 _ = V m c main_v0 _
  congr 1
  funext a
  apply Fin.ext
  match a with
  | ⟨0, _⟩ => show win0_0.index t 0 * 1 + 1 * 0 = t.val; rw [e0]; omega
  | ⟨1, _⟩ => show win0_0.index t 1 * 64 + 1 * r.val = r.val; rw [e1]; omega
  | ⟨2, _⟩ => show win0_0.index t 2 * 16384 + 1 * k.val = k.val; rw [e2]; omega

/-- The region's input array is the reshape of the masks. -/
theorem V_main_v0 (c : Dev nD) :
    (V m c main_v0 : Vec F S32x64x16384 .f32)
      = shapeCast S32x64x16384 (m ((c : Thread nD τ).loc main_arg0)) shapeCasts_S32x64x128x128_S32x64x16384 := by
  show StableHlo.after hostOps0 (fun b => m (c, b)) (Proc.devRef .tc main_v0) = _
  after_results
  rfl

end Pieces

/-! ## At the ideal instance -/

section AtIdeal

variable (m : (ℓ : Loc nD τ sig) → Buf (Elt Ideal) ℓ) (ρ : Dev nD → PrngReg)

/-- The overlap ratio of rows `p`, `q` of the batch element the input window holds at point `t`. -/
def ratioAt (c : Dev nD) (t : Fin cfg0.N) (p q : Fin 64) : EReal :=
  Cert.Spec.ratio (fun r k => Cert.Spec.act ((iblk m c 0 t : Vec Ideal S1x64x16384 .f32) (ix3 (0 : Fin 1) r k))) p q

/-- The ratios of the batch elements up to `n`, added in grid order from zero. -/
def partialSum (c : Dev nD) (p q : Fin 64) : (n : ℕ) → n < cfg0.N → EReal
  | 0, h => 0 + ratioAt m c ⟨0, h⟩ p q
  | n + 1, h => partialSum c p q n (Nat.lt_of_succ_lt h) + ratioAt m c ⟨n + 1, h⟩ p q

/-- The accumulator's entry after point `n` is that running sum: induction on the point. -/
theorem accAt_apply (c : Dev nD) (p q : Fin 64) : ∀ (n : ℕ) (h : n < cfg0.N),
    (accAt m c n h : Vec Ideal S64x64 .f32) (ix2 p q) = partialSum m c p q n h
  | 0, h => by
    rw [accAt_first m c ⟨0, h⟩ rfl, accFirst_eq, pay2_apply, pay1_apply]
    rfl
  | n + 1, h => by
    rw [accAt_later m c ⟨n + 1, h⟩ (Nat.succ_ne_zero n), accLater_eq, pay2_apply]
    show (accAt m c n _ : Vec Ideal S64x64 .f32) (ix2 p q) + _ = _
    rw [accAt_apply c p q n]
    rfl

/-- The running sum as a sum over an initial segment of the batch. -/
theorem partialSum_eq (c : Dev nD) (p q : Fin 64) : ∀ (n : ℕ) (h : n < cfg0.N),
    partialSum m c p q n h = ∑ b ∈ Finset.range (n + 1), (if hb : b < cfg0.N then ratioAt m c ⟨b, hb⟩ p q else 0)
  | 0, h => by
    rw [partialSum, Finset.sum_range_one, dif_pos h, zero_add]
  | n + 1, h => by
    rw [partialSum, partialSum_eq c p q n, Finset.sum_range_succ _ (n + 1), dif_pos h]

/-- After the last point an entry of the accumulator is the specification's sum over the batch of the
    reshaped masks. -/
theorem acc_apply (c : Dev nD) (p q : Fin 64) :
    (accAt m c 31 tLast.isLt : Vec Ideal S64x64 .f32) (ix2 p q)
      = Cert.Spec.ratioSum (fun b r k => shapeCast S32x64x16384 (m ((c : Thread nD τ).loc main_arg0)) shapeCasts_S32x64x128x128_S32x64x16384 (ix3 b r k)) p q := by
  rw [accAt_apply, partialSum_eq, Finset.sum_range]
  unfold Cert.Spec.ratioSum
  refine Finset.sum_congr rfl fun b _ => ?_
  have hb : (b : ℕ) < cfg0.N := lt_of_lt_of_eq b.isLt N_0.symm
  rw [dif_pos hb]
  unfold ratioAt
  refine congrArg (fun a => Cert.Spec.ratio a p q) (funext fun r => funext fun k => congrArg Cert.Spec.act ?_)
  rw [iblk_apply, V_main_v0]

/-- The kernel program's result: the shared tail of the accumulated ratios and of the integer argument. -/
theorem result_eq (c : Dev nD) :
    Pipeline.afterTail₀ cfgs (dats m) 0 (V0 m) tailOps c main_v64
      = tail (accAt m c 31 tLast.isLt) (m ((c : Thread nD τ).loc main_arg1)) := by
  unfold Pipeline.afterTail₀
  show StableHlo.after (List.flatten [hostOps1, hostOps1_1, hostOps1_2, hostOps1_3, hostOps1_4, hostOps1_5, hostOps1_6]) _ (Proc.devRef .tc main_v64) = _
  rw [tail_after]
  exact congrArg₂ tail ((Pipeline.withArrays_arr spec0 launch0.win.arr_inj c _ _ 1).trans (final_acc m c))
    ((Pipeline.withArrays_of_ne spec0 c _ _ main_arg1 (by intro w; fin_cases w <;> decide)).trans (V_main_arg1 m c))

/-- The run, read: the result at the tail of the accumulated ratios, the arguments unchanged. -/
theorem run : θ_run defs (onTc (τ := τ) (main (F := Ideal))) ⟨m, fun _ => 0, ρ⟩ fun r => ∀ c : Dev nD,
      r.2.mem ((c.tc : Thread nD τ).loc main_v64) = tail (accAt m c 31 tLast.isLt) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_main m ρ)
  exact ⟨((h c).2 main_v64 (Pipeline.mem_restRefs_of main_v64 rfl (by intro w; fin_cases w <;> decide))).trans (result_eq m c),
    args_of_post m (dats m) r h c⟩

end AtIdeal

end Cert.KernelIdeal.Hand

end
-- ==== Proof.RefValue.lean ====
/-
  The reference's sum over the batch, read at one entry of the 64 × 64 array.

  For each batch element b the reference activates every mask entry (x ↦ max 0 ((x + 1) / 2)), regards the 128 × 128
  pixels of a row as one axis of 16384, forms for rows p, q the inner product ∑ₖ a p k · a q k and the row masses
  ∑ₖ a p k, divides the inner product by the smaller of the two masses, and sums the quotients over b.  Read at the
  entry (p, q) this is Spec's `ratioSum` of the regrouped input.
-/
import proofs.«169511_j78881369358863_1_alg».proof.Proof.Gen.ReferenceIdeal.Read
import proofs.«169511_j78881369358863_1_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.ValueIdx

/-- Regrouping the pixel axes reads the operand at the index with the same row-major position. -/
theorem regroup_apply {α : Type} (y : S32x64x128x128.Idx → α) (i : S32x64x16384.Idx) :
    shapeCast S32x64x16384 y shapeCasts_S32x64x128x128_S32x64x16384 i = y (idx_main_v5 i) :=
  shapeCast_apply y shapeCasts_S32x64x128x128_S32x64x16384 i (idx_main_v5 i)
    (by rewrite [Shape.rowMajor_val_four, Shape.rowMajor_val_three]; have h0 : (i 0).val < 32 := (i 0).isLt; have h1 : (i 1).val < 64 := (i 1).isLt; have h2 : (i 2).val < 16384 := (i 2).isLt; show (((((i 0).val * 64 + (i 1).val) * 16384 + (i 2).val) / 1048576 * 64 + (((i 0).val * 64 + (i 1).val) * 16384 + (i 2).val) / 16384 % 64) * 128 + (((i 0).val * 64 + (i 1).val) * 16384 + (i 2).val) / 128 % 128) * 128 + (((i 0).val * 64 + (i 1).val) * 16384 + (i 2).val) % 128 = ((i 0).val * 64 + (i 1).val) * 16384 + (i 2).val; omega)

/-- The activated, regrouped masks at an index: the activation of the regrouped input there. -/
theorem activated_apply (x0 : (⟨S32x64x128x128, .f32⟩ : BufTy).Contents (Elt Ideal)) (i : S32x64x16384.Idx) :
    val_main_v5 (F := Ideal) x0 i
      = Cert.Spec.act (shapeCast S32x64x16384 x0 shapeCasts_S32x64x128x128_S32x64x16384 i) := by
  rw [regroup_apply, val_main_v5_apply, val_main_v4_apply, val_main_call0_v1_apply, val_main_call0_v0_apply,
    val_main_cst_1_apply, val_main_v3_apply, val_main_v1_apply, val_main_v0_apply, val_main_cst_apply,
    val_main_v2_apply, val_main_cst_0_apply]
  simp only [Ideal.ofBits_def, Ideal.addf_def, Ideal.maximumf_def, Ideal.hostDivf_def]
  exact Cert.Spec.act_of_div _

/-- The reference's batch sum at the entry (p, q): the overlap ratios of the activated masks summed over the batch. -/
theorem batchSum_apply (x0 : (⟨S32x64x128x128, .f32⟩ : BufTy).Contents (Elt Ideal)) (p q : Fin 64) :
    val_main_v14 (F := Ideal) x0 (ix2 p q)
      = Cert.Spec.ratioSum (fun b r k => shapeCast S32x64x16384 x0 shapeCasts_S32x64x128x128_S32x64x16384 (ix3 b r k)) p q := by
  unfold Cert.Spec.ratioSum Cert.Spec.ratio
  rw [val_main_v14_apply, val_main_cst_3_apply, Ideal.ofBits_def, Ideal.ofBits_zero_f32, zero_add]
  refine Finset.sum_congr rfl fun b _ => ?_
  have e14 : idx_main_v14 (ix2 p q) b = ix3 b p q :=
    funext fun a => Fin.ext (by match a with | ⟨0, _⟩ => rfl | ⟨1, _⟩ => rfl | ⟨2, _⟩ => rfl)
  have e10 : idx_main_v8 (idx_main_v10 (ix3 b p q)) = ix2 b p :=
    funext fun a => Fin.ext (by match a with | ⟨0, _⟩ => rfl | ⟨1, _⟩ => rfl)
  have e11 : idx_main_v9 (idx_main_v11 (ix3 b p q)) = ix2 b q :=
    funext fun a => Fin.ext (by match a with | ⟨0, _⟩ => rfl | ⟨1, _⟩ => rfl)
  have el : ∀ k : Fin 16384, lidx_main_v6 (ix3 b p q) k = ix3 b p k := fun k =>
    funext fun a => Fin.ext (by match a with | ⟨0, _⟩ => rfl | ⟨1, _⟩ => rfl | ⟨2, _⟩ => rfl)
  have er : ∀ k : Fin 16384, ridx_main_v6 (ix3 b p q) k = ix3 b q k := fun k =>
    funext fun a => Fin.ext (by match a with | ⟨0, _⟩ => rfl | ⟨1, _⟩ => rfl | ⟨2, _⟩ => rfl)
  have e7 : ∀ (r : Fin 64) (k : Fin 16384), idx_main_v7 (ix2 b r) k = ix3 b r k := fun r k =>
    funext fun a => Fin.ext (by match a with | ⟨0, _⟩ => rfl | ⟨1, _⟩ => rfl | ⟨2, _⟩ => rfl)
  have mass : ∀ r : Fin 64, val_main_v7 (F := Ideal) x0 (ix2 b r)
      = ∑ k : Fin 16384, Cert.Spec.act (shapeCast S32x64x16384 x0 shapeCasts_S32x64x128x128_S32x64x16384 (ix3 b r k)) := fun r => by
    rw [val_main_v7_apply, val_main_cst_2_apply, Ideal.ofBits_def, Ideal.ofBits_zero_f32, zero_add]
    refine Finset.sum_congr rfl fun k _ => ?_
    rw [e7, activated_apply]
  have overlap : (∑ k : Fin 16384, val_main_v5 (F := Ideal) x0 (lidx_main_v6 (ix3 b p q) k)
        * val_main_v5 (F := Ideal) x0 (ridx_main_v6 (ix3 b p q) k))
      = ∑ k : Fin 16384, Cert.Spec.act (shapeCast S32x64x16384 x0 shapeCasts_S32x64x128x128_S32x64x16384 (ix3 b p k))
        * Cert.Spec.act (shapeCast S32x64x16384 x0 shapeCasts_S32x64x128x128_S32x64x16384 (ix3 b q k)) :=
    Finset.sum_congr rfl fun k _ => by rw [el, er, activated_apply, activated_apply]
  rw [e14, val_main_v13_apply, Ideal.hostDivf_def, val_main_v6_apply, val_main_v12_apply, Ideal.minimumf_def,
    val_main_v10_apply, val_main_v8_apply, e10, val_main_v11_apply, val_main_v9_apply, e11, mass, mass, overlap]

end Cert.ReferenceIdeal.Hand

end
-- ==== Proof.lean ====
/-
  The certificate of the overlap-ratio loss kernel against its jnp reference.

  The kernel streams the 32 batch elements of the masks through one pipelined region; at each grid point its body
  maps the block's entries x to max 0 ((x + 1) · ½), forms for every pair of rows the inner product divided by
  the smaller of the two row sums, and adds that 64×64 array into an accumulator the first point zeroes; the host
  then divides by 32 and runs the node-type weighting down to a scalar.  The reference does the same on the
  host: (x + 1) / 2 clipped at 0, a batched product, row sums, the quotient, a sum over the batch axis, and the
  same tail.

  Frames.  Both kernel programs are one text; their frame is proved once, generic in the float instance:
  the body's triple in its two cases (first point / later point), what the accumulator's buffer holds point by
  point, the pipeline's proof data, and the library's launch theorem for a region followed by host operations.
  The reference's frame is its run with the result dropped.

  Values, at the ideal instance.  An entry (p, q) of the kernel's accumulator after the last point is the sum
  over the batch of the specification's ratio (induction over the grid points; the body's arithmetic read at an
  entry), and so is the reference's batch sum (its operations read at an entry; dividing by 2 is multiplying by
  ½ on every extended real).  Addition of extended reals is associative and commutative, so the grid order of
  the kernel's additions does not matter.  Both programs then apply the same tail, which is never opened.  No
  use is made of the inputs' finiteness.

  The ideal pass rewrote nothing, so the idealized kernel is the kernel's own text read at the ideal instance.
-/
import proofs.«169511_j78881369358863_1_alg».proof.Defs
import proofs.«169511_j78881369358863_1_alg».proof.Proof.Gen.Kernel
import proofs.«169511_j78881369358863_1_alg».proof.Proof.Gen.KernelIdeal
import proofs.«169511_j78881369358863_1_alg».proof.Proof.Gen.ReferenceIdeal
import proofs.«169511_j78881369358863_1_alg».proof.Proof.Gen.ReferenceIdeal.Run
import proofs.«169511_j78881369358863_1_alg».proof.Proof.Gen.ReferenceIdeal.Read
import proofs.«169511_j78881369358863_1_alg».proof.Proof.Gen.Pre_finite_inputs
import proofs.«169511_j78881369358863_1_alg».proof.Proof.KFrame
import proofs.«169511_j78881369358863_1_alg».proof.Proof.KIValue
import proofs.«169511_j78881369358863_1_alg».proof.Proof.RefValue
import proofs.«169511_j78881369358863_1_alg».proof.Proof.Tail
import Idealize.ShloMosaic.Adequacy
import Idealize.ShloMosaic.Init

noncomputable section

namespace Cert.Proof

open Idealize.ShloMosaic Idealize.SL.Sem Idealize.ShloMosaic.ValueIdx

/-- The word-level kernel program runs to the end, faults nowhere and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the shared tail applied to the same 64×64
    array — entry by entry the sum over the batch of the overlap ratios — and to the same integer argument. -/
theorem algebraic : Cert.algebraic_KernelIdeal_ReferenceIdeal := by
  intro m ρ m' ρ' _ hagree
  refine ⟨fun c => Cert.KernelIdeal.Hand.tail (Cert.KernelIdeal.Hand.accAt m c 31 Cert.KernelIdeal.Hand.tLast.isLt)
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Hand.res_eq_tail, (hagree c).1, (hagree c).2, ← Cert.Hand.tail_eq]
  congr 1
  funext j
  obtain ⟨p, q, rfl⟩ : ∃ (p : Fin 64) (q : Fin 64), j = ix2 p q := ⟨j 0, j 1, eq_ix2 j⟩
  rw [Cert.ReferenceIdeal.Hand.batchSum_apply, Cert.KernelIdeal.Hand.acc_apply]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
